-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16384x64 : Shape := ⟨3, ![16, 16384, 64]⟩
abbrev S64 : Shape := ⟨1, ![64]⟩
abbrev S64x64 : Shape := ⟨2, ![64, 64]⟩
abbrev S_ : Shape := ⟨0, ![]⟩

class Facts : Prop where
  bcast_S_S16x16384x64 : S_.BroadcastsInDim S16x16384x64 (![] : Fin 0 → Fin S16x16384x64.rank)
  reducesTo_S16x16384x64_S_d0_1_2 : S16x16384x64.ReducesTo [0, 1, 2] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S16x16384x64 .f32) (main_arg1 : FVec F S64 .f32) (main_arg2 : FVec F S64x64 .f32) (main_arg3 : FVec F S64x64 .f32) : IVec S_ 1 :=
  let main_v0 : FVec F S16x16384x64 .f32 := Host.absf main_arg0
  let main_cst : FVec F S_ .f32 := constant S_ .f32 0x7F800000#32
  let main_v1 : FVec F S16x16384x64 .f32 := broadcastInDim S16x16384x64 ![] bcast_S_S16x16384x64 main_cst
  let main_v2 : IVec S16x16384x64 1 := cmpf .olt main_v0 main_v1
  let main_c : IVec S_ 1 := constantI S_ 1 1#1
  let main_v3 : IVec S_ 1 := (fun x v => Host.reduce IntOp.andi x v reducesTo_S16x16384x64_S_d0_1_2 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S16x16384x64 : Shape := ⟨3, ![16, 16384, 64]⟩
abbrev S64 : Shape := ⟨1, ![64]⟩
abbrev S64x64 : Shape := ⟨2, ![64, 64]⟩
abbrev S16x8256 : Shape := ⟨2, ![16, 8256]⟩
abbrev S8x1024x64 : Shape := ⟨3, ![8, 1024, 64]⟩
abbrev S8x8256 : Shape := ⟨2, ![8, 8256]⟩
abbrev S8x64 : Shape := ⟨2, ![8, 64]⟩
abbrev S8x64x64 : Shape := ⟨3, ![8, 64, 64]⟩
abbrev S8192x64 : Shape := ⟨2, ![8192, 64]⟩
abbrev S1x1x64 : Shape := ⟨3, ![1, 1, 64]⟩
abbrev S8x1024 : Shape := ⟨2, ![8, 1024]⟩
abbrev S8x1024x1 : Shape := ⟨3, ![8, 1024, 1]⟩
abbrev S1x64 : Shape := ⟨2, ![1, 64]⟩
abbrev S8x64x1 : Shape := ⟨3, ![8, 64, 1]⟩
abbrev S1x64x64 : Shape := ⟨3, ![1, 64, 64]⟩
abbrev S8x4096 : Shape := ⟨2, ![8, 4096]⟩

abbrev nBuf : Space → Nat
  | .hbm => 5
  | .vmem => 10
  | .smem => 0
  | _ => 0

abbrev bufTy : (tb : Table) → Fin (tcTables nBuf tb) → BufTy
  | .hbm, ⟨0, _⟩ => ⟨S16x16384x64, .f32⟩
  | .hbm, ⟨1, _⟩ => ⟨S64, .f32⟩
  | .hbm, ⟨2, _⟩ => ⟨S64x64, .f32⟩
  | .hbm, ⟨3, _⟩ => ⟨S64x64, .f32⟩
  | .hbm, ⟨4, _⟩ => ⟨S16x8256, .f32⟩
  | .local _ .vmem, ⟨0, _⟩ => ⟨S8x1024x64, .f32⟩
  | .local _ .vmem, ⟨1, _⟩ => ⟨S8x1024x64, .f32⟩
  | .local _ .vmem, ⟨2, _⟩ => ⟨S64, .f32⟩
  | .local _ .vmem, ⟨3, _⟩ => ⟨S64x64, .f32⟩
  | .local _ .vmem, ⟨4, _⟩ => ⟨S64x64, .f32⟩
  | .local _ .vmem, ⟨5, _⟩ => ⟨S8x8256, .f32⟩
  | .local _ .vmem, ⟨6, _⟩ => ⟨S8x8256, .f32⟩
  | .local _ .vmem, ⟨7, _⟩ => ⟨S8x64, .f32⟩
  | .local _ .vmem, ⟨8, _⟩ => ⟨S8x64x64, .f32⟩
  | .local _ .vmem, ⟨9, _⟩ => ⟨S8x64x64, .f32⟩
  | _, _ => ⟨S16x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v75 : BitVec 1 := Scalar.cmpi .eq arg1 c15_i32
  let v76 : BitVec 32 := Scalar.extui v75
  let c0_i32_37 : BitVec 32 := 0#32
  let v77 : BitVec 1 := Scalar.cmpi .ne v76 c0_i32_37
  v77

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x8256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S8x64x64_S8x64x64_0_0_0 : ∀ a, (![0, 0, 0] : Fin 3 → Nat) a + S8x64x64.size a ≤ S8x64x64.size a
  h_S8x64x64 : 0 < S8x64x64.numel
  shapeCasts_S8x64x64_S8x64x64 : S8x64x64.ShapeCasts S8x64x64
  inb_S8x1024x64_S8x1024x64_0_0_0 : ∀ a, (![0, 0, 0] : Fin 3 → Nat) a + S8x1024x64.size a ≤ S8x1024x64.size a
  h_S8x1024x64 : 0 < S8x1024x64.numel
  inb_S64x64_S64x64_0_0 : ∀ a, (![0, 0] : Fin 2 → Nat) a + S64x64.size a ≤ S64x64.size a
  h_S64x64 : 0 < S64x64.numel
  reduces_S64x64_S64 : S64x64.Reduces [1] S64
  bitsLt_bf16_f32 : FTy.bits .bf16 < FTy.bits .f32
  shapeCasts_S8x1024x64_S8192x64 : S8x1024x64.ShapeCasts S8192x64
  transposes_S64x64_p1_0_S64x64 : S64x64.Transposes [1, 0] S64x64
  shapeCasts_S8192x64_S8x1024x64 : S8192x64.ShapeCasts S8x1024x64
  shapeCasts_S64_S1x1x64 : S64.ShapeCasts S1x1x64
  broadcasts_S1x1x64_S8x1024x64 : S1x1x64.Broadcasts S8x1024x64
  inb_S64_S64_0 : ∀ a, (![0] : Fin 1 → Nat) a + S64.size a ≤ S64.size a
  h_S64 : 0 < S64.numel
  reduces_S8x1024x64_S8x1024 : S8x1024x64.Reduces [2] S8x1024
  shapeCasts_S8x1024_S8x1024x1 : S8x1024.ShapeCasts S8x1024x1
  broadcasts_S8x1024x1_S8x1024x64 : S8x1024x1.Broadcasts S8x1024x64
  reduces_S8x1024x64_S8x64 : S8x1024x64.Reduces [1] S8x64
  shapeCasts_S64_S1x64 : S64.ShapeCasts S1x64
  broadcasts_S1x64_S8x64 : S1x64.Broadcasts S8x64
  shapeCasts_S8x64_S8x64x1 : S8x64.ShapeCasts S8x64x1
  shapeCasts_S64x64_S1x64x64 : S64x64.ShapeCasts S1x64x64
  broadcasts_S8x64x1_S8x64x64 : S8x64x1.Broadcasts S8x64x64
  broadcasts_S1x64x64_S8x64x64 : S1x64x64.Broadcasts S8x64x64
  shapeCasts_S8x64x64_S8x4096 : S8x64x64.ShapeCasts S8x4096
  concatenates_S8x64_S8x4096_S8x4096_S8x8256_d1 : Shape.Concatenates [S8x64, S8x4096, S8x4096] S8x8256 1
  inb_S8x8256_S8x8256_0_0 : ∀ a, (![0, 0] : Fin 2 → Nat) a + S8x8256.size a ≤ S8x8256.size a
  h_S8x8256 : 0 < S8x8256.numel
  dot_S8192x64_S64x64_S8192x64_1_0_0_1_n_n_wf : DotDims.WF S8192x64 S64x64 S8192x64 [1] [0] [0] [1] [] []
  dot_S8x1024x64_S8x1024x64_S8x64x64_1_1_2_2_0_0_wf : DotDims.WF S8x1024x64 S8x1024x64 S8x64x64 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x64.size a ≤ S16x16384x64.size a
  hwx0_0 : ∀ i : grid0.Coords, EltTy.bits .f32 = 32 ∨ (Rect.block (s := S16x16384x64) S8x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64.size a ≤ S64.size a
  hwx0_1 : ∀ i : grid0.Coords, EltTy.bits .f32 = 32 ∨ (Rect.block (s := S64) S64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x8256.size a ≤ S16x8256.size a
  hwx0_4 : ∀ i : grid0.Coords, EltTy.bits .f32 = 32 ∨ (Rect.block (s := S16x8256) S8x8256.size (cc0_transform_4 i) (hinb0_4 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8x1024x64_S8x1024x64_S8x64x64_1_1_2_2_0_0 : DotDims S8x1024x64 S8x1024x64 S8x64x64 where
  lhsContracting := [1]
  rhsContracting := [1]
  lhsNonContracting := [2]
  rhsNonContracting := [2]
  lhsBatch := [0]
  rhsBatch := [0]
  wf := dot_S8x1024x64_S8x1024x64_S8x64x64_1_1_2_2_0_0_wf

abbrev win0_0 : Pipeline.Window sig grid0 :=
  Pipeline.Window.ofSpec (Memref.whole main_arg0) S8x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x8256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x16384x64 : Shape := ⟨3, ![16, 16384, 64]⟩
abbrev S64 : Shape := ⟨1, ![64]⟩
abbrev S64x64 : Shape := ⟨2, ![64, 64]⟩
abbrev S_ : Shape := ⟨0, ![]⟩
abbrev S1x1x64 : Shape := ⟨3, ![1, 1, 64]⟩
abbrev S16x16384 : Shape := ⟨2, ![16, 16384]⟩
abbrev S16x16384x1 : Shape := ⟨3, ![16, 16384, 1]⟩
abbrev S16x64 : Shape := ⟨2, ![16, 64]⟩
abbrev S16x64x64 : Shape := ⟨3, ![16, 64, 64]⟩
abbrev S1x64 : Shape := ⟨2, ![1, 64]⟩
abbrev S16x64x1 : Shape := ⟨3, ![16, 64, 1]⟩
abbrev S1x64x64 : Shape := ⟨3, ![1, 64, 64]⟩
abbrev S16x4096 : Shape := ⟨2, ![16, 4096]⟩
abbrev S16x8256 : Shape := ⟨2, ![16, 8256]⟩

abbrev nBuf : Space → Nat
  | .hbm => 96
  | .vmem => 0
  | .smem => 0
  | _ => 0

abbrev bufTy : (tb : Table) → Fin (tcTables nBuf tb) → BufTy
  | .hbm, ⟨0, _⟩ => ⟨S16x16384x64, .f32⟩
  | .hbm, ⟨1, _⟩ => ⟨S64, .f32⟩
  | .hbm, ⟨2, _⟩ => ⟨S64x64, .f32⟩
  | .hbm, ⟨3, _⟩ => ⟨S64x64, .f32⟩
  | .hbm, ⟨4, _⟩ => ⟨S_, .f32⟩
  | .hbm, ⟨5, _⟩ => ⟨S64x64, .f32⟩
  | .hbm, ⟨6, _⟩ => ⟨S64x64, .f32⟩
  | .hbm, ⟨7, _⟩ => ⟨S16x16384x64, .f32⟩
  | .hbm, ⟨8, _⟩ => ⟨S16x16384x64, .f32⟩
  | .hbm, ⟨9, _⟩ => ⟨S64x64, .f32⟩
  | .hbm, ⟨10, _⟩ => ⟨S16x16384x64, .f32⟩
  | .hbm, ⟨11, _⟩ => ⟨S_, .f32⟩
  | .hbm, ⟨12, _⟩ => ⟨S16x16384x64, .f32⟩
  | .hbm, ⟨13, _⟩ => ⟨S16x16384x64, .f32⟩
  | .hbm, ⟨14, _⟩ => ⟨S16x16384x64, .f32⟩
  | .hbm, ⟨15, _⟩ => ⟨S64x64, .f32⟩
  | .hbm, ⟨16, _⟩ => ⟨S64x64, .f32⟩
  | .hbm, ⟨17, _⟩ => ⟨S_, .f32⟩
  | .hbm, ⟨18, _⟩ => ⟨S64, .f32⟩
  | .hbm, ⟨19, _⟩ => ⟨S1x1x64, .f32⟩
  | .hbm, ⟨20, _⟩ => ⟨S16x16384x64, .f32⟩
  | .hbm, ⟨21, _⟩ => ⟨S16x16384x64, .f32⟩
  | .hbm, ⟨22, _⟩ => ⟨S64x64, .f32⟩
  | .hbm, ⟨23, _⟩ => ⟨S_, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S1x1x64, .f32⟩
  | .hbm, ⟨29, _⟩ => ⟨S16x16384x64, .f32⟩
  | .hbm, ⟨30, _⟩ => ⟨S16x16384x64, .f32⟩
  | .hbm, ⟨31, _⟩ => ⟨S_, .f32⟩
  | .hbm, ⟨32, _⟩ => ⟨S16x16384x64, .f32⟩
  | .hbm, ⟨33, _⟩ => ⟨S16x16384x64, .f32⟩
  | .hbm, ⟨34, _⟩ => ⟨S64, .f32⟩
  | .hbm, ⟨35, _⟩ => ⟨S1x1x64, .f32⟩
  | .hbm, ⟨36, _⟩ => ⟨S16x16384x64, .f32⟩
  | .hbm, ⟨37, _⟩ => ⟨S16x16384x64, .f32⟩
  | .hbm, ⟨38, _⟩ => ⟨S_, .f32⟩
  | .hbm, ⟨39, _⟩ => ⟨S16x16384, .f32⟩
  | .hbm, ⟨40, _⟩ => ⟨S_, .f32⟩
  | .hbm, ⟨41, _⟩ => ⟨S16x16384, .f32⟩
  | .hbm, ⟨42, _⟩ => ⟨S16x16384, .f32⟩
  | .hbm, ⟨43, _⟩ => ⟨S16x16384x1, .f32⟩
  | .hbm, ⟨44, _⟩ => ⟨S16x16384x64, .f32⟩
  | .hbm, ⟨45, _⟩ => ⟨S16x16384x64, .f32⟩
  | .hbm, ⟨46, _⟩ => ⟨S16x16384x64, .f32⟩
  | .hbm, ⟨47, _⟩ => ⟨S_, .f32⟩
  | .hbm, ⟨48, _⟩ => ⟨S16x16384, .f32⟩
  | .hbm, ⟨49, _⟩ => ⟨S16x16384x1, .f32⟩
  | .hbm, ⟨50, _⟩ => ⟨S16x16384x64, .f32⟩
  | .hbm, ⟨51, _⟩ => ⟨S16x16384x64, .f32⟩
  | .hbm, ⟨52, _⟩ => ⟨S_, .f32⟩
  | .hbm, ⟨53, _⟩ => ⟨S16x64, .f32⟩
  | .hbm, ⟨54, _⟩ => ⟨S_, .f32⟩
  | .hbm, ⟨55, _⟩ => ⟨S16x64, .f32⟩
  | .hbm, ⟨56, _⟩ => ⟨S16x64, .f32⟩
  | .hbm, ⟨57, _⟩ => ⟨S16x64x64, .f32⟩
  | .hbm, ⟨58, _⟩ => ⟨S_, .f32⟩
  | .hbm, ⟨59, _⟩ => ⟨S16x64x64, .f32⟩
  | .hbm, ⟨60, _⟩ => ⟨S16x64x64, .f32⟩
  | .hbm, ⟨61, _⟩ => ⟨S16x64x64, .f32⟩
  | .hbm, ⟨62, _⟩ => ⟨S_, .f32⟩
  | .hbm, ⟨63, _⟩ => ⟨S16x64x64, .f32⟩
  | .hbm, ⟨64, _⟩ => ⟨S16x64x64, .f32⟩
  | .hbm, ⟨65, _⟩ => ⟨S1x64, .f32⟩
  | .hbm, ⟨66, _⟩ => ⟨S16x64, .f32⟩
  | .hbm, ⟨67, _⟩ => ⟨S16x64, .f32⟩
  | .hbm, ⟨68, _⟩ => ⟨S16x64x1, .f32⟩
  | .hbm, ⟨69, _⟩ => ⟨S1x64x64, .f32⟩
  | .hbm, ⟨70, _⟩ => ⟨S16x64x64, .f32⟩
  | .hbm, ⟨71, _⟩ => ⟨S16x64x64, .f32⟩
  | .hbm, ⟨72, _⟩ => ⟨S16x64x64, .f32⟩
  | .hbm, ⟨73, _⟩ => ⟨S16x64x64, .f32⟩
  | .hbm, ⟨74, _⟩ => ⟨S16x64x64, .f32⟩
  | .hbm, ⟨75, _⟩ => ⟨S64x64, .f32⟩
  | .hbm, ⟨76, _⟩ => ⟨S1x64x64, .f32⟩
  | .hbm, ⟨77, _⟩ => ⟨S16x64x64, .f32⟩
  | .hbm, ⟨78, _⟩ => ⟨S16x64x64, .f32⟩
  | .hbm, ⟨79, _⟩ => ⟨S16x64x64, .f32⟩
  | .hbm, ⟨80, _⟩ => ⟨S16x64x64, .f32⟩
  | .hbm, ⟨81, _⟩ => ⟨S1x64x64, .f32⟩
  | .hbm, ⟨82, _⟩ => ⟨S16x64x64, .f32⟩
  | .hbm, ⟨83, _⟩ => ⟨S16x64x64, .f32⟩
  | .hbm, ⟨84, _⟩ => ⟨S16x64x64, .f32⟩
  | .hbm, ⟨85, _⟩ => ⟨S16x64x64, .f32⟩
  | .hbm, ⟨86, _⟩ => ⟨S_, .f32⟩
  | .hbm, ⟨87, _⟩ => ⟨S16x64x64, .f32⟩
  | .hbm, ⟨88, _⟩ => ⟨S16x64x64, .f32⟩
  | .hbm, ⟨89, _⟩ => ⟨S1x64x64, .f32⟩
  | .hbm, ⟨90, _⟩ => ⟨S16x64x64, .f32⟩
  | .hbm, ⟨91, _⟩ => ⟨S16x64x64, .f32⟩
  | .hbm, ⟨92, _⟩ => ⟨S16x64x64, .f32⟩
  | .hbm, ⟨93, _⟩ => ⟨S16x4096, .f32⟩
  | .hbm, ⟨94, _⟩ => ⟨S16x4096, .f32⟩
  | .hbm, ⟨95, _⟩ => ⟨S16x8256, .f32⟩
  | _, _ => ⟨S16x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_12 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  bcast_S_S16x16384x64 : S_.BroadcastsInDim S16x16384x64 (![] : Fin 0 → Fin S16x16384x64.rank)
  reducesTo_S64x64_S64_d1 : S64x64.ReducesTo [1] S64
  h_S_ : 0 < S_.numel
  bcast_S64_S1x1x64_2 : S64.BroadcastsInDim S1x1x64 (![2] : Fin 1 → Fin S1x1x64.rank)
  bcast_S1x1x64_S16x16384x64_0_1_2 : S1x1x64.BroadcastsInDim S16x16384x64 (![0, 1, 2] : Fin 3 → Fin S16x16384x64.rank)
  bcast_S_S64 : S_.BroadcastsInDim S64 (![] : Fin 0 → Fin S64.rank)
  reducesTo_S16x16384x64_S16x16384_d2 : S16x16384x64.ReducesTo [2] S16x16384
  bcast_S_S16x16384 : S_.BroadcastsInDim S16x16384 (![] : Fin 0 → Fin S16x16384.rank)
  bcast_S16x16384_S16x16384x1_0_1 : S16x16384.BroadcastsInDim S16x16384x1 (![0, 1] : Fin 2 → Fin S16x16384x1.rank)
  bcast_S16x16384x1_S16x16384x64_0_1_2 : S16x16384x1.BroadcastsInDim S16x16384x64 (![0, 1, 2] : Fin 3 → Fin S16x16384x64.rank)
  reducesTo_S16x16384x64_S16x64_d1 : S16x16384x64.ReducesTo [1] S16x64
  bcast_S_S16x64 : S_.BroadcastsInDim S16x64 (![] : Fin 0 → Fin S16x64.rank)
  bcast_S_S16x64x64 : S_.BroadcastsInDim S16x64x64 (![] : Fin 0 → Fin S16x64x64.rank)
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  bcast_S16x64_S16x64x1_0_1 : S16x64.BroadcastsInDim S16x64x1 (![0, 1] : Fin 2 → Fin S16x64x1.rank)
  bcast_S64x64_S1x64x64_1_2 : S64x64.BroadcastsInDim S1x64x64 (![1, 2] : Fin 2 → Fin S1x64x64.rank)
  bcast_S16x64x1_S16x64x64_0_1_2 : S16x64x1.BroadcastsInDim S16x64x64 (![0, 1, 2] : Fin 3 → Fin S16x64x64.rank)
  bcast_S1x64x64_S16x64x64_0_1_2 : S1x64x64.BroadcastsInDim S16x64x64 (![0, 1, 2] : Fin 3 → Fin S16x64x64.rank)
  shapeCasts_S16x64x64_S16x4096 : S16x64x64.ShapeCasts S16x4096
  concatenates_S16x64_S16x4096_S16x4096_S16x8256_d1 : Shape.Concatenates [S16x64, S16x4096, S16x4096] S16x8256 1
  dot_S16x16384x64_S64x64_S16x16384x64_2_1_01_0_n_n_wf : DotDims.WF S16x16384x64 S64x64 S16x16384x64 [2] [1] [0, 1] [0] [] []
  dot_S16x16384x64_S16x16384x64_S16x64x64_1_1_2_2_0_0_wf : DotDims.WF S16x16384x64 S16x16384x64 S16x64x64 [1] [1] [2] [2] [0] [0]

variable [Facts₀]

def dot_S16x16384x64_S64x64_S16x16384x64_2_1_01_0_n_n : DotDims S16x16384x64 S64x64 S16x16384x64 where
  lhsContracting := [2]
  rhsContracting := [1]
  lhsNonContracting := [0, 1]
  rhsNonContracting := [0]
  lhsBatch := []
  rhsBatch := []
  wf := dot_S16x16384x64_S64x64_S16x16384x64_2_1_01_0_n_n_wf
def dot_S16x16384x64_S16x16384x64_S16x64x64_1_1_2_2_0_0 : DotDims S16x16384x64 S16x16384x64 S16x64x64 where
  lhsContracting := [1]
  rhsContracting := [1]
  lhsNonContracting := [2]
  rhsNonContracting := [2]
  lhsBatch := [0]
  rhsBatch := [0]
  wf := dot_S16x16384x64_S16x16384x64_S16x64x64_1_1_2_2_0_0_wf

class Facts : Prop extends Facts₀ where

variable [Facts]
-- ==== Proof.KPieces.lean ====
/-
  What one grid step of the kernel leaves in its three accumulators and, at the last step of a batch
  block, in the output block — as the body's arithmetic applied to what the step finds: the sample block
  `x0`, the mixture weights `x1`, the means `x2`, the variances `x3` and the accumulators' contents
  `xs0`, `xs1`, `xs2` left by the step before (zero at the first step of a batch block, where the body
  clears them first and reads the cleared value back).
-/
import proofs.«110436_j6837587935988_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl
theorem hz3 : (![0, 0, 0] : Fin 3 → Nat) = fun _ => 0 := funext fun a => by fin_cases a <;> rfl

variable (c : Dev nD) (i : grid0.Coords)
    (arg2 : Memref sig .tc .vmem S8x1024x64 .f32) (harg2 : arg2.IsWhole) (arg3 : Memref sig .tc .vmem S64 .f32) (harg3 : arg3.IsWhole)
    (arg4 : Memref sig .tc .vmem S64x64 .f32) (harg4 : arg4.IsWhole) (arg5 : Memref sig .tc .vmem S64x64 .f32) (harg5 : arg5.IsWhole)
    (arg6 : Memref sig .tc .vmem S8x8256 .f32) (harg6 : arg6.IsWhole) (arg7 : Memref sig .tc .vmem S8x64 .f32) (harg7 : arg7.IsWhole)
    (arg8 : Memref sig .tc .vmem S8x64x64 .f32) (harg8 : arg8.IsWhole) (arg9 : Memref sig .tc .vmem S8x64x64 .f32) (harg9 : arg9.IsWhole)
  (x0 : Vec F S8x1024x64 .f32) (x1 : Vec F S64 .f32) (x2 : Vec F S64x64 .f32) (x3 : Vec F S64x64 .f32)
  (xs0 : Vec F S8x64 .f32) (xs1 : Vec F S8x64x64 .f32) (xs2 : Vec F S8x64x64 .f32)

theorem sout_A_0 (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 = k0_pay16 (k0_pay13 x0 x3 x2) x1 (k0_pay8 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S8x64) hz2, View.readCov_unit_zero (S := S8x64) _ hz2]
  simp only [View.readAt_eq_ld, harg2.read_unread, harg3.read_unread, harg4.read_unread, harg5.read_unread, harg7.read_unread, harg8.read_unread, harg9.read_unread, View.ld_unit_zero (S := S8x1024x64) hz3, View.ld_unit_zero (S := S64x64) hz2, View.ld_unit_zero (S := S64) hz1, View.ld_unit_zero (S := S8x64) hz2, View.ld_unit_zero (S := S8x64x64) hz3]

theorem sout_A_1 (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 = k0_pay17 (k0_pay11 x0) (k0_pay13 x0 x3 x2) x1 (k0_pay9 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S8x64x64) hz3, View.readCov_unit_zero (S := S8x64x64) _ hz3]
  simp only [View.readAt_eq_ld, harg2.read_unread, harg3.read_unread, harg4.read_unread, harg5.read_unread, harg7.read_unread, harg8.read_unread, harg9.read_unread, View.ld_unit_zero (S := S8x1024x64) hz3, View.ld_unit_zero (S := S64x64) hz2, View.ld_unit_zero (S := S64) hz1, View.ld_unit_zero (S := S8x64) hz2, View.ld_unit_zero (S := S8x64x64) hz3]

theorem sout_A_2 (hc0 : cond0_0 i) (hc1 : ¬cond0_1 i) :
    sout0_A_2 c i arg2 harg2 arg3 harg3 arg4 harg4 arg5 harg5 arg6 harg6 arg7 harg7 arg8 harg8 arg9 harg9 hc0 hc1 x0 x1 x2 x3 = k0_pay18 (k0_pay12 x0) (k0_pay13 x0 x3 x2) x1 (k0_pay10 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S8x64x64) hz3, View.readCov_unit_zero (S := S8x64x64) _ hz3]
  simp only [View.readAt_eq_ld, harg2.read_unread, harg3.read_unread, harg4.read_unread, harg5.read_unread, harg7.read_unread, harg8.read_unread, harg9.read_unread, View.ld_unit_zero (S := S8x1024x64) hz3, View.ld_unit_zero (S := S64x64) hz2, View.ld_unit_zero (S := S64) hz1, View.ld_unit_zero (S := S8x64) hz2, View.ld_unit_zero (S := S8x64x64) hz3]

theorem sout_B_0 (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 x2 x3 xs0 xs1 xs2 = k0_pay16 (k0_pay13 x0 x3 x2) x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S8x1024x64) hz3, View.ld_unit_zero (S := S64x64) hz2, View.ld_unit_zero (S := S64) hz1, View.ld_unit_zero (S := S8x64) hz2, View.ld_unit_zero (S := S8x64x64) hz3]

theorem sout_B_1 (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 x2 x3 xs0 xs1 xs2 = k0_pay17 (k0_pay11 x0) (k0_pay13 x0 x3 x2) x1 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz3]
  simp only [View.readAt_eq_ld, harg2.read_unread, harg3.read_unread, harg4.read_unread, harg5.read_unread, harg7.read_unread, harg8.read_unread, harg9.read_unread, View.ld_unit_zero (S := S8x1024x64) hz3, View.ld_unit_zero (S := S64x64) hz2, View.ld_unit_zero (S := S64) hz1, View.ld_unit_zero (S := S8x64) hz2, View.ld_unit_zero (S := S8x64x64) hz3]

theorem sout_B_2 (hc0 : ¬cond0_0 i) (hc1 : ¬cond0_1 i) :
    sout0_B_2 c i arg2 harg2 arg3 harg3 arg4 harg4 arg5 harg5 arg6 harg6 arg7 harg7 arg8 harg8 arg9 harg9 hc0 hc1 x0 x1 x2 x3 xs0 xs1 xs2 = k0_pay18 (k0_pay12 x0) (k0_pay13 x0 x3 x2) x1 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz3]
  simp only [View.readAt_eq_ld, harg2.read_unread, harg3.read_unread, harg4.read_unread, harg5.read_unread, harg7.read_unread, harg8.read_unread, harg9.read_unread, View.ld_unit_zero (S := S8x1024x64) hz3, View.ld_unit_zero (S := S64x64) hz2, View.ld_unit_zero (S := S64) hz1, View.ld_unit_zero (S := S8x64) hz2, View.ld_unit_zero (S := S8x64x64) hz3]

theorem sout_C_0 (hc0 : ¬cond0_0 i) (hc1 : cond0_1 i) :
    sout0_C_0 c i arg2 harg2 arg3 harg3 arg4 harg4 arg5 harg5 arg6 harg6 arg7 harg7 arg8 harg8 arg9 harg9 hc0 hc1 x0 x1 x2 x3 xs0 xs1 xs2 = k0_pay16 (k0_pay13 x0 x3 x2) x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S8x1024x64) hz3, View.ld_unit_zero (S := S64x64) hz2, View.ld_unit_zero (S := S64) hz1, View.ld_unit_zero (S := S8x64) hz2, View.ld_unit_zero (S := S8x64x64) hz3]

theorem sout_C_1 (hc0 : ¬cond0_0 i) (hc1 : cond0_1 i) :
    sout0_C_1 c i arg2 harg2 arg3 harg3 arg4 harg4 arg5 harg5 arg6 harg6 arg7 harg7 arg8 harg8 arg9 harg9 hc0 hc1 x0 x1 x2 x3 xs0 xs1 xs2 = k0_pay17 (k0_pay11 x0) (k0_pay13 x0 x3 x2) x1 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz3]
  simp only [View.readAt_eq_ld, harg2.read_unread, harg3.read_unread, harg4.read_unread, harg5.read_unread, harg7.read_unread, harg8.read_unread, harg9.read_unread, View.ld_unit_zero (S := S8x1024x64) hz3, View.ld_unit_zero (S := S64x64) hz2, View.ld_unit_zero (S := S64) hz1, View.ld_unit_zero (S := S8x64) hz2, View.ld_unit_zero (S := S8x64x64) hz3]

theorem sout_C_2 (hc0 : ¬cond0_0 i) (hc1 : cond0_1 i) :
    sout0_C_2 c i arg2 harg2 arg3 harg3 arg4 harg4 arg5 harg5 arg6 harg6 arg7 harg7 arg8 harg8 arg9 harg9 hc0 hc1 x0 x1 x2 x3 xs0 xs1 xs2 = k0_pay18 (k0_pay12 x0) (k0_pay13 x0 x3 x2) x1 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz3]
  simp only [View.readAt_eq_ld, harg2.read_unread, harg3.read_unread, harg4.read_unread, harg5.read_unread, harg7.read_unread, harg8.read_unread, harg9.read_unread, View.ld_unit_zero (S := S8x1024x64) hz3, View.ld_unit_zero (S := S64x64) hz2, View.ld_unit_zero (S := S64) hz1, View.ld_unit_zero (S := S8x64) hz2, View.ld_unit_zero (S := S8x64x64) hz3]

theorem out_C_4 (hc0 : ¬cond0_0 i) (hc1 : cond0_1 i) :
    out0_C_4 c i arg2 harg2 arg3 harg3 arg4 harg4 arg5 harg5 arg6 harg6 arg7 harg7 arg8 harg8 arg9 harg9 hc0 hc1 x0 x1 x2 x3 xs0 xs1 xs2
      = k0_pay1 (k0_pay4 (k0_pay16 (k0_pay13 x0 x3 x2) x1 xs0) x1)
          (k0_pay6 (k0_pay16 (k0_pay13 x0 x3 x2) x1 xs0) (k0_pay17 (k0_pay11 x0) (k0_pay13 x0 x3 x2) x1 xs1) x2)
          (k0_pay7 (k0_pay16 (k0_pay13 x0 x3 x2) x1 xs0) (k0_pay17 (k0_pay11 x0) (k0_pay13 x0 x3 x2) x1 xs1) (k0_pay18 (k0_pay12 x0) (k0_pay13 x0 x3 x2) x1 xs2) x2 x3) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readCov_unit_zero (S := S8x64) _ hz2, View.readCov_unit_zero (S := S8x64x64) _ hz3, View.ld_unit_zero (S := S8x8256) hz2, View.readAt_eq_ld, harg2.read_unread, harg3.read_unread, harg4.read_unread, harg5.read_unread, harg7.read_unread, harg8.read_unread, harg9.read_unread, View.ld_unit_zero (S := S8x1024x64) hz3, View.ld_unit_zero (S := S64x64) hz2, View.ld_unit_zero (S := S64) hz1, View.ld_unit_zero (S := S8x64) hz2, View.ld_unit_zero (S := S8x64x64) hz3]

end Cert.KernelIdeal.Pieces
end
-- ==== Proof.Spec.lean ====
/-
  Fisher-vector statistics of a diagonal-covariance Gaussian mixture, stated index by index over the
  extended reals.

  For a row `xr` of 64 features and the mixture's parameters (weights `pi`, means `mu`, variances `var`,
  64 components of 64 features) the responsibility of component `k` is the softmax over `k` of
  `-1/2 · ((c + Σ_d log var) + ((Σ_d x²/var - 2 Σ_d x·mu/var) + Σ_d mu²/var)) + log pi`;
  the statistics of a batch row are the sums over its 16384 samples of the responsibilities, of the
  responsibilities times the features and times the squared features, each divided by the sample count,
  combined into the gradients with respect to the weights, the means and the variances.
  Both programs compute exactly these expressions; they differ only in how the sums over the samples
  are grouped, and sums of extended reals may be regrouped freely (a commutative monoid).
-/
import Idealize.ShloMosaic.PureOps.Ideal
import Idealize.ShloMosaic.PureOps.Ideal.Laws
import Idealize.ShloMosaic.Lib.ValueIdx

noncomputable section

namespace Cert.Fisher

open Idealize.ShloMosaic Idealize.ShloMosaic.ValueIdx

/-- The reciprocal of a variance entry. -/
def ivar (var : Fin 64 → Fin 64 → EReal) (k d : Fin 64) : EReal :=
  Ideal.div (Ideal.ofBits .f32 0x3F800000#32) (var k d)

/-- The Gaussian log-density of the row `xr` under component `k` (before the mixture weight): the
    Mahalanobis distance expanded as `Σ x²/var - 2 Σ x·mu/var + Σ mu²/var`. -/
def logProb (mu var : Fin 64 → Fin 64 → EReal) (xr : Fin 64 → EReal) (k : Fin 64) : EReal :=
  Ideal.ofBits .f32 0xBF000000#32 *
    ((Ideal.ofBits .f32 0x42EB3F8E#32 + ∑ d : Fin 64, Ideal.log (var k d))
      + (((∑ d : Fin 64, (xr d * xr d) * ivar var k d)
            - Ideal.ofBits .f32 0x40000000#32 * (∑ d : Fin 64, xr d * (mu k d * ivar var k d)))
          + ∑ d : Fin 64, (mu k d * mu k d) * ivar var k d))

/-- The largest logit of a row, taken from minus infinity (twice: once by the reduction, once outside). -/
def rowMax (L : Fin 64 → EReal) : EReal :=
  max (Ideal.ofBits .f32 0xFF800000#32) ((Finset.univ : Finset (Fin 64)).fold max (Ideal.ofBits .f32 0xFF800000#32) L)

/-- The softmax of a row of logits. -/
def softmax (L : Fin 64 → EReal) (k : Fin 64) : EReal :=
  Ideal.div (Ideal.exp (L k - rowMax L)) (∑ k' : Fin 64, Ideal.exp (L k' - rowMax L))

/-- The responsibility of component `k` for the row `xr`. -/
def resp (pi : Fin 64 → EReal) (mu var : Fin 64 → Fin 64 → EReal) (xr : Fin 64 → EReal) (k : Fin 64) : EReal :=
  softmax (fun k' => logProb mu var xr k' + Ideal.log (pi k')) k

/-- The sample count 16384 as both programs spell it. -/
abbrev cnt : EReal := Ideal.ofBits .f32 0x46800000#32

/-- Gradient with respect to a mixture weight, from the summed responsibilities `s0`. -/
def dPi (s0 pik : EReal) : EReal := Ideal.div s0 cnt - pik

/-- Gradient with respect to a mean entry, from the summed responsibilities `s0` and the
    responsibility-weighted feature sum `s1`. -/
def dMu (s0 s1 muv : EReal) : EReal := Ideal.div s1 cnt - Ideal.div s0 cnt * muv

/-- Gradient with respect to a variance entry; `s2` is the responsibility-weighted squared-feature sum. -/
def dSigma (s0 s1 s2 muv varv : EReal) : EReal :=
  ((-(Ideal.div s2 cnt) - Ideal.div s0 cnt * (muv * muv)) + Ideal.div s0 cnt * varv)
    + (Ideal.ofBits .f32 0x40000000#32 * Ideal.div s1 cnt) * muv

section Arrays

variable (x : (⟨3, ![16, 16384, 64]⟩ : Shape).Idx → EReal) (pi : (⟨1, ![64]⟩ : Shape).Idx → EReal)
  (mu var : (⟨2, ![64, 64]⟩ : Shape).Idx → EReal)

/-- The responsibility of component `k` for sample `n` of batch row `b`. -/
def gamma (b : Fin 16) (n : Fin 16384) (k : Fin 64) : EReal :=
  resp (fun k' => pi (ix1 k')) (fun k' d => mu (ix2 k' d)) (fun k' d => var (ix2 k' d)) (fun d => x (ix3 b n d)) k

/-- Summed responsibilities of a batch row. -/
def sum0 (b : Fin 16) (k : Fin 64) : EReal := ∑ n : Fin 16384, gamma x pi mu var b n k
/-- Responsibility-weighted feature sums. -/
def sum1 (b : Fin 16) (k d : Fin 64) : EReal := ∑ n : Fin 16384, gamma x pi mu var b n k * x (ix3 b n d)
/-- Responsibility-weighted squared-feature sums. -/
def sum2 (b : Fin 16) (k d : Fin 64) : EReal :=
  ∑ n : Fin 16384, gamma x pi mu var b n k * (x (ix3 b n d) * x (ix3 b n d))

/-- The three gradient blocks of a batch row. -/
def gradPi (b : Fin 16) (k : Fin 64) : EReal := dPi (sum0 x pi mu var b k) (pi (ix1 k))
def gradMu (b : Fin 16) (k d : Fin 64) : EReal :=
  dMu (sum0 x pi mu var b k) (sum1 x pi mu var b k d) (mu (ix2 k d))
def gradSigma (b : Fin 16) (k d : Fin 64) : EReal :=
  dSigma (sum0 x pi mu var b k) (sum1 x pi mu var b k d) (sum2 x pi mu var b k d) (mu (ix2 k d)) (var (ix2 k d))

/-- The Fisher vector: per batch row the 64 weight gradients, then the 64×64 mean gradients, then the
    64×64 variance gradients, each block flattened row-major. -/
def fisher : (⟨2, ![16, 8256]⟩ : Shape).Idx → EReal := fun j =>
  if h : (j 1).val < 64 then gradPi x pi mu var (j 0) ⟨(j 1).val, h⟩
  else if h2 : (j 1).val < 4160 then
    gradMu x pi mu var (j 0) ⟨((j 1).val - 64) / 64, by have := (j 1).isLt; omega⟩
      ⟨((j 1).val - 64) % 64, Nat.mod_lt _ (by decide)⟩
  else
    gradSigma x pi mu var (j 0) ⟨((j 1).val - 4160) / 64, by have : (j 1).val < 8256 := (j 1).isLt; omega⟩
      ⟨((j 1).val - 4160) % 64, Nat.mod_lt _ (by decide)⟩

end Arrays

end Cert.Fisher

end
-- ==== Proof.KLogProb.lean ====
import proofs.«110436_j6837587935988_1_alg».proof.Proof.Gen.KernelIdeal.Skeleton
import proofs.«110436_j6837587935988_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open Cert.KernelIdeal Cert.KernelIdeal.Gen

namespace Cert.KernelIdeal.Bridge

/-! ## The layout operations of the block, each read at explicit coordinates -/

section Layout
variable {α : Type}

/-- Flattening the batch and sample axes: row `1024·p + r` of the flat block is sample `r` of batch row `p`. -/
theorem flatten_apply (x : S8x1024x64.Idx → α) (h : S8x1024x64.ShapeCasts S8192x64)
    (p : Fin 8) (r : Fin 1024) (d : Fin 64) (hlt : 1024 * p.val + r.val < 8192) :
    shapeCast S8192x64 x h (ix2 ⟨1024 * p.val + r.val, hlt⟩ d) = x (ix3 p r d) :=
  shapeCast_apply x h _ _ (by
    rw [Shape.rowMajor_val_three, Shape.rowMajor_val_two]
    show (p.val * 1024 + r.val) * 64 + d.val = (1024 * p.val + r.val) * 64 + d.val
    omega)

/-- The inverse reshape: sample `r` of batch row `p` is row `1024·p + r` of the flat array. -/
theorem unflatten_apply (y : S8192x64.Idx → α) (h : S8192x64.ShapeCasts S8x1024x64)
    (p : Fin 8) (r : Fin 1024) (k : Fin 64) :
    shapeCast S8x1024x64 y h (ix3 p r k)
      = y (ix2 ⟨1024 * p.val + r.val, by have := p.isLt; have := r.isLt; omega⟩ k) :=
  shapeCast_apply y h _ _ (by
    rw [Shape.rowMajor_val_three, Shape.rowMajor_val_two]
    show (1024 * p.val + r.val) * 64 + k.val = (p.val * 1024 + r.val) * 64 + k.val
    omega)

/-- A vector of 64 entries viewed with two leading unit axes. -/
theorem unitAxes_apply (v : S64.Idx → α) (h : S64.ShapeCasts S1x1x64) (u w : Fin 1) (k : Fin 64) :
    shapeCast S1x1x64 v h (ix3 u w k) = v (ix1 k) :=
  shapeCast_apply v h _ _ (by
    have hu : u.val = 0 := by omega
    have hw : w.val = 0 := by omega
    rw [Shape.rowMajor_val_three, Shape.rowMajor_val_one]
    show k.val = (u.val * 1 + w.val) * 64 + k.val
    omega)

/-- One row of 64 entries spread over every sample of every batch row. -/
theorem spread_apply (y : S1x1x64.Idx → α) (h : S1x1x64.Broadcasts S8x1024x64)
    (p : Fin 8) (r : Fin 1024) (k : Fin 64) :
    broadcastTo S8x1024x64 y h (ix3 p r k) = y (ix3 (0 : Fin 1) (0 : Fin 1) k) :=
  broadcastTo_apply y h _ _ (fun a => match a with
    | ⟨0, _⟩ => by show 0 = if (1 : Nat) = 1 then 0 else p.val; rw [if_pos rfl]
    | ⟨1, _⟩ => by show 0 = if (1 : Nat) = 1 then 0 else r.val; rw [if_pos rfl]
    | ⟨2, _⟩ => by show k.val = if (64 : Nat) = 1 then 0 else k.val; rw [if_neg (by decide)])

/-- The transposed matrix at `(d, k)` is the matrix at `(k, d)`. -/
theorem transposed_apply (x : S64x64.Idx → α) (h : S64x64.Transposes ([1, 0] : List (Fin 2)) S64x64) (d k : Fin 64) :
    transpose S64x64 ([1, 0] : List (Fin 2)) x h (ix2 d k) = x (ix2 k d) :=
  transpose_ix2_apply x h d k

end Layout

/-! ## The sum over the features of a 64×64 array -/

/-- The reduction over axis 1 from the zero accumulator is the sum over the 64 features of a row. -/
theorem rowSum_apply (src : FVec Ideal S64x64 .f32) (h : S64x64.Reduces ([1] : List (Fin 2)) S64) (hφ : FKind.Formats .f32)
    (hacc : (0x00000000#32 : BitVec 32) = 0x00000000#32) (k : Fin 64) :
    multiReduction .add ([1] : List (Fin 2)) S64 src 0x00000000#32 h hφ hacc (ix1 k) = ∑ d : Fin 64, src (ix2 k d) := by
  refine (Ideal.multiReduction_add_single src _ h hφ hacc (ix1 k)).trans ?_
  refine Finset.sum_congr rfl fun d _ => ?_
  exact congrArg src (funext fun a => Fin.ext (by match a with | ⟨0, _⟩ => rfl | ⟨1, _⟩ => rfl))

/-! ## The product of the flat block with a 64×64 matrix -/

/-- The left operand is read at the output's row … -/
theorem lhs_rows_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
/-- … and at the contracted feature. -/
theorem lhs_rows_1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
/-- The right operand is read at the contracted feature … -/
theorem rhs_rows_0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
/-- … and at the output's column. -/
theorem rhs_rows_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- Entry `(row, k)` of the product into the zero accumulator is `Σ_d lhs(row, d) · rhs(d, k)`. -/
theorem matmul_rows_apply {φ₁ φ₂ : FTy} (lhs : FVec Ideal S8192x64 φ₁) (rhs : FVec Ideal S64x64 φ₂)
    (row : Fin 8192) (k : Fin 64) :
    matmul dot_S8192x64_S64x64_S8192x64_1_0_0_1_n_n none lhs rhs (constant S8192x64 .f32 0x00000000#32) (ix2 row k)
      = ∑ d : Fin 64, lhs (ix2 row d) * rhs (ix2 d k) := by
  refine (Ideal.matmul_constant_zero_apply dot_S8192x64_S64x64_S8192x64_1_0_0_1_n_n none lhs rhs (ix2 row k)).trans ?_
  rw [← Equiv.sum_comp (ValueIdx.contrEquiv1 dot_S8192x64_S64x64_S8192x64_1_0_0_1_n_n 64 rfl rfl).symm]
  refine Finset.sum_congr rfl fun d _ => ?_
  have hd := ValueIdx.contrEquiv1_symm_val dot_S8192x64_S64x64_S8192x64_1_0_0_1_n_n 64 rfl rfl d
  have el : dot_S8192x64_S64x64_S8192x64_1_0_0_1_n_n.lhsIdx (ix2 row k) ((ValueIdx.contrEquiv1 dot_S8192x64_S64x64_S8192x64_1_0_0_1_n_n 64 rfl rfl).symm d) = ix2 row d := funext fun a => Fin.ext (by
    match a with
    | ⟨0, _⟩ => exact lhs_rows_0 _ _
    | ⟨1, _⟩ => exact (lhs_rows_1 _ _).trans hd)
  have er : dot_S8192x64_S64x64_S8192x64_1_0_0_1_n_n.rhsIdx (ix2 row k) ((ValueIdx.contrEquiv1 dot_S8192x64_S64x64_S8192x64_1_0_0_1_n_n 64 rfl rfl).symm d) = ix2 d k := funext fun a => Fin.ext (by
    match a with
    | ⟨0, _⟩ => exact (rhs_rows_0 _ _).trans hd
    | ⟨1, _⟩ => exact rhs_rows_1 _ _)
  rw [el, er]

/-! ## The log-density block -/

/-- The log-density block: at sample `r` of batch row `p` and component `k` the payload is the Gaussian
    log-density of that sample's feature row under component `k`. -/
theorem logProb_apply (x0 : Vec Ideal S8x1024x64 .f32) (v5 v6 : Vec Ideal S64x64 .f32)
    (p : Fin 8) (r : Fin 1024) (k : Fin 64) :
    k0_pay13 (F := Ideal) x0 v5 v6 (ix3 p r k)
      = Cert.Fisher.logProb (fun k' d => v6 (ix2 k' d)) (fun k' d => v5 (ix2 k' d)) (fun d => x0 (ix3 p r d)) k := by
  unfold k0_pay13 k0_pay11 k0_pay12
  -- every operation outside the four sums is pointwise; each reshape, transpose, spread, product and row sum is
  -- read at its coordinates, which leaves the sums over the 64 features in the order the specification writes them
  simp only [mulf_apply, addf_apply, subf_apply, broadcast_apply, spread_apply, unitAxes_apply, unflatten_apply,
    matmul_rows_apply, flatten_apply, transposed_apply, truncf_apply, rowSum_apply, divf_apply]
  unfold Cert.Fisher.logProb Cert.Fisher.ivar
  -- both sides are now the same expression: the logarithm and the constants of the extended reals are the ideal ones
  rfl

end Cert.KernelIdeal.Bridge

end
-- ==== Proof.KEpilogue.lean ====
import proofs.«110436_j6837587935988_1_alg».proof.Proof.Gen.KernelIdeal.Skeleton
import proofs.«110436_j6837587935988_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open Cert.KernelIdeal Cert.KernelIdeal.Gen

namespace Cert.KernelIdeal.Epilogue

/-! ## Layout reads at this program's shapes

Each layout operation of the epilogue reads, at an index given by its coordinates, one entry of its operand. -/

/-- The 64 weights, given a leading unit axis and repeated over the 8 batch rows, read at `(p, k)` the weight `k`. -/
theorem weights_rows_apply (pi : Vec Ideal S64 .f32) (h1 : S64.ShapeCasts S1x64) (h2 : S1x64.Broadcasts S8x64)
    (p : Fin 8) (k : Fin 64) :
    broadcastTo S8x64 (shapeCast S1x64 pi h1) h2 (ix2 p k) = pi (ix1 k) :=
  (broadcastTo_1b_ab_apply _ h2 p k).trans (shapeCast_a_1a_apply pi h1 0 k)

/-- A column `[8, 64, 1]` repeated along a last axis of 64 reads, at `(p, k, d)`, the column's entry `(p, k, 0)`. -/
theorem column_spread_apply (v : FVec Ideal S8x64x1 .f32) (h : S8x64x1.Broadcasts S8x64x64)
    (p : Fin 8) (k d : Fin 64) :
    broadcastTo S8x64x64 v h (ix3 p k d) = v (ix3 p k (0 : Fin 1)) := by
  refine broadcastTo_apply v h (ix3 p k d) (ix3 p k (0 : Fin 1)) fun a => ?_
  match a with
  | ⟨0, _⟩ => rfl
  | ⟨1, _⟩ => rfl
  | ⟨2, _⟩ => rfl

/-- A matrix `[64, 64]`, given a leading unit axis and repeated over the 8 batch rows, reads at `(p, k, d)` its
    entry `(k, d)`. -/
theorem matrix_spread_apply (m : FVec Ideal S64x64 .f32) (h1 : S64x64.ShapeCasts S1x64x64)
    (h2 : S1x64x64.Broadcasts S8x64x64) (p : Fin 8) (k d : Fin 64) :
    broadcastTo S8x64x64 (shapeCast S1x64x64 m h1) h2 (ix3 p k d) = m (ix2 k d) := by
  refine (broadcastTo_apply _ h2 (ix3 p k d) (ix3 (0 : Fin 1) k d) fun a => ?_).trans
    (shapeCast_ab_1ab_apply m h1 0 k d)
  match a with
  | ⟨0, _⟩ => rfl
  | ⟨1, _⟩ => rfl
  | ⟨2, _⟩ => rfl

/-- A block `[8, 64, 64]` flattened row-major to `[8, 4096]` reads, at column `c`, the entry
    `(c / 64, c % 64)` of the row's matrix: `c = 64 · (c / 64) + c % 64`. -/
theorem flatten_apply (v : FVec Ideal S8x64x64 .f32) (h : S8x64x64.ShapeCasts S8x4096) (p : Fin 8) (c : Fin 4096) :
    shapeCast S8x4096 v h (ix2 p c)
      = v (ix3 p ⟨c.val / 64, by have := c.isLt; omega⟩ ⟨c.val % 64, Nat.mod_lt _ (by decide)⟩) := by
  refine shapeCast_apply v h _ _ ?_
  rw [Shape.rowMajor_val_two, Shape.rowMajor_val_three]
  show (p.val * 64 + c.val / 64) * 64 + c.val % 64 = p.val * 4096 + c.val
  omega

/-! ## The accumulators divided by the sample count -/

/-- The summed responsibilities over the sample count, at an index. -/
theorem mean0_apply (s0 : Vec Ideal S8x64 .f32) (i : S8x64.Idx) :
    k0_pay2 (F := Ideal) s0 i = Ideal.div (s0 i) Cert.Fisher.cnt := rfl

/-- A weighted sum block over the sample count, at an index. -/
theorem mean1_apply (s1 : Vec Ideal S8x64x64 .f32) (i : S8x64x64.Idx) :
    k0_pay3 (F := Ideal) s1 i = Ideal.div (s1 i) Cert.Fisher.cnt := rfl

/-- The same as a column `[8, 64, 1]`: its entry `(p, k, u)` is the mean responsibility `(p, k)`. -/
theorem mean0_column_apply (s0 : Vec Ideal S8x64 .f32) (p : Fin 8) (k : Fin 64) (u : Fin 1) :
    k0_pay5 (F := Ideal) s0 (ix3 p k u) = Ideal.div (s0 (ix2 p k)) Cert.Fisher.cnt := by
  unfold k0_pay5
  refine (shapeCast_apply _ _ (ix3 p k u) (ix2 p k) ?_).trans (mean0_apply s0 (ix2 p k))
  rw [Shape.rowMajor_val_two, Shape.rowMajor_val_three]
  show p.val * 64 + k.val = (p.val * 64 + k.val) * 1 + u.val
  omega

/-- At the extended reals the zero word less `a` is `-a`. -/
theorem zero_word_sub (a : EReal) : Ideal.ofBits .f32 0x00000000#32 - a = -a := by
  rw [Ideal.ofBits_zero_f32, sub_eq_add_neg, zero_add]

/-! ## The three gradient blocks at an index -/

/-- The weight gradients: mean responsibility less the weight. -/
theorem weight_block_apply (s0 : Vec Ideal S8x64 .f32) (pi : Vec Ideal S64 .f32) (p : Fin 8) (k : Fin 64) :
    k0_pay4 (F := Ideal) s0 pi (ix2 p k) = Cert.Fisher.dPi (s0 (ix2 p k)) (pi (ix1 k)) := by
  unfold k0_pay4 Cert.Fisher.dPi
  show k0_pay2 (F := Ideal) s0 (ix2 p k) - broadcastTo S8x64 (shapeCast S1x64 pi _) _ (ix2 p k) = _
  rw [weights_rows_apply, mean0_apply]

/-- The mean gradients, flattened: column `c` holds the entry `(c / 64, c % 64)`. -/
theorem mean_block_apply (s0 : Vec Ideal S8x64 .f32) (s1 : Vec Ideal S8x64x64 .f32) (mu : Vec Ideal S64x64 .f32)
    (p : Fin 8) (c : Fin 4096) :
    k0_pay6 (F := Ideal) s0 s1 mu (ix2 p c)
      = Cert.Fisher.dMu (s0 (ix2 p ⟨c.val / 64, by have := c.isLt; omega⟩))
          (s1 (ix3 p ⟨c.val / 64, by have := c.isLt; omega⟩ ⟨c.val % 64, Nat.mod_lt _ (by decide)⟩))
          (mu (ix2 ⟨c.val / 64, by have := c.isLt; omega⟩ ⟨c.val % 64, Nat.mod_lt _ (by decide)⟩)) := by
  unfold k0_pay6 Cert.Fisher.dMu
  refine (flatten_apply _ _ p c).trans ?_
  show k0_pay3 (F := Ideal) s1 (ix3 p _ _)
      - broadcastTo S8x64x64 (k0_pay5 (F := Ideal) s0) _ (ix3 p _ _)
        * broadcastTo S8x64x64 (shapeCast S1x64x64 mu _) _ (ix3 p _ _) = _
  rw [column_spread_apply, matrix_spread_apply, mean0_column_apply, mean1_apply]

/-- The variance gradients, flattened: column `c` holds the entry `(c / 64, c % 64)`. -/
theorem variance_block_apply (s0 : Vec Ideal S8x64 .f32) (s1 s2 : Vec Ideal S8x64x64 .f32)
    (mu var : Vec Ideal S64x64 .f32) (p : Fin 8) (c : Fin 4096) :
    k0_pay7 (F := Ideal) s0 s1 s2 mu var (ix2 p c)
      = Cert.Fisher.dSigma (s0 (ix2 p ⟨c.val / 64, by have := c.isLt; omega⟩))
          (s1 (ix3 p ⟨c.val / 64, by have := c.isLt; omega⟩ ⟨c.val % 64, Nat.mod_lt _ (by decide)⟩))
          (s2 (ix3 p ⟨c.val / 64, by have := c.isLt; omega⟩ ⟨c.val % 64, Nat.mod_lt _ (by decide)⟩))
          (mu (ix2 ⟨c.val / 64, by have := c.isLt; omega⟩ ⟨c.val % 64, Nat.mod_lt _ (by decide)⟩))
          (var (ix2 ⟨c.val / 64, by have := c.isLt; omega⟩ ⟨c.val % 64, Nat.mod_lt _ (by decide)⟩)) := by
  unfold k0_pay7 Cert.Fisher.dSigma
  refine (flatten_apply _ _ p c).trans ?_
  show (((Ideal.ofBits .f32 0x00000000#32 - Ideal.div (s2 (ix3 p _ _)) (Ideal.ofBits .f32 0x46800000#32))
          - broadcastTo S8x64x64 (k0_pay5 (F := Ideal) s0) _ (ix3 p _ _)
            * broadcastTo S8x64x64 (shapeCast S1x64x64 (mulf mu mu) _) _ (ix3 p _ _))
        + broadcastTo S8x64x64 (k0_pay5 (F := Ideal) s0) _ (ix3 p _ _)
            * broadcastTo S8x64x64 (shapeCast S1x64x64 var _) _ (ix3 p _ _))
      + (Ideal.ofBits .f32 0x40000000#32 * k0_pay3 (F := Ideal) s1 (ix3 p _ _))
          * broadcastTo S8x64x64 (shapeCast S1x64x64 mu _) _ (ix3 p _ _) = _
  rw [column_spread_apply, matrix_spread_apply, matrix_spread_apply, matrix_spread_apply, mean0_column_apply,
    mean1_apply, zero_word_sub]
  rfl

/-- The epilogue's output block: per batch row the weight gradients, then the mean gradients, then the
    variance gradients, from the accumulated sums `s0`, `s1`, `s2`. -/
theorem epilogue_apply (s0 : Vec Ideal S8x64 .f32) (s1 s2 : Vec Ideal S8x64x64 .f32) (pi : Vec Ideal S64 .f32)
    (mu var : Vec Ideal S64x64 .f32) (p : Fin 8) (j : Fin 8256) :
    k0_pay1 (F := Ideal) (k0_pay4 s0 pi) (k0_pay6 s0 s1 mu) (k0_pay7 s0 s1 s2 mu var) (ix2 p j)
      = if h : j.val < 64 then Cert.Fisher.dPi (s0 (ix2 p ⟨j.val, h⟩)) (pi (ix1 ⟨j.val, h⟩))
        else if h2 : j.val < 4160 then
          Cert.Fisher.dMu (s0 (ix2 p ⟨(j.val - 64) / 64, by have := j.isLt; omega⟩))
            (s1 (ix3 p ⟨(j.val - 64) / 64, by have := j.isLt; omega⟩ ⟨(j.val - 64) % 64, Nat.mod_lt _ (by decide)⟩))
            (mu (ix2 ⟨(j.val - 64) / 64, by have := j.isLt; omega⟩ ⟨(j.val - 64) % 64, Nat.mod_lt _ (by decide)⟩))
        else
          Cert.Fisher.dSigma (s0 (ix2 p ⟨(j.val - 4160) / 64, by have := j.isLt; omega⟩))
            (s1 (ix3 p ⟨(j.val - 4160) / 64, by have := j.isLt; omega⟩ ⟨(j.val - 4160) % 64, Nat.mod_lt _ (by decide)⟩))
            (s2 (ix3 p ⟨(j.val - 4160) / 64, by have := j.isLt; omega⟩ ⟨(j.val - 4160) % 64, Nat.mod_lt _ (by decide)⟩))
            (mu (ix2 ⟨(j.val - 4160) / 64, by have := j.isLt; omega⟩ ⟨(j.val - 4160) % 64, Nat.mod_lt _ (by decide)⟩))
            (var (ix2 ⟨(j.val - 4160) / 64, by have := j.isLt; omega⟩ ⟨(j.val - 4160) % 64, Nat.mod_lt _ (by decide)⟩)) := by
  unfold k0_pay1
  -- the concatenation along the columns, read at `(p, j)`, is the piece whose span holds `j`
  have piece := concatenate_apply_piece (t := S8x8256) (1 : Fin 2)
    [⟨S8x64, k0_pay4 (F := Ideal) s0 pi⟩, ⟨S8x4096, k0_pay6 (F := Ideal) s0 s1 mu⟩,
      ⟨S8x4096, k0_pay7 (F := Ideal) s0 s1 s2 mu var⟩]
    concatenates_S8x64_S8x4096_S8x4096_S8x8256_d1 (ix2 p j)
  have hj := j.isLt
  by_cases h : j.val < 64
  · -- columns below 64: the first piece, at the same column
    rw [dif_pos h]
    refine (piece 0 (show (0 : Nat) < 3 by decide) S8x64 _ rfl rfl 0 rfl (ix2 p ⟨j.val, h⟩) (fun b hb => ?_)
      (Nat.zero_add _)).trans (weight_block_apply s0 pi p ⟨j.val, h⟩)
    match b with
    | ⟨0, _⟩ => rfl
    | ⟨1, _⟩ => exact absurd rfl hb
  · rw [dif_neg h]
    by_cases h2 : j.val < 4160
    · -- columns 64 to 4159: the second piece, 64 columns to the left
      rw [dif_pos h2]
      refine (piece 1 (show (1 : Nat) < 3 by decide) S8x4096 _ rfl rfl 64 rfl (ix2 p ⟨j.val - 64, by omega⟩)
        (fun b hb => ?_) ?_).trans (mean_block_apply s0 s1 mu p ⟨j.val - 64, by omega⟩)
      · match b with
        | ⟨0, _⟩ => rfl
        | ⟨1, _⟩ => exact absurd rfl hb
      · show 64 + (j.val - 64) = j.val
        omega
    · -- columns from 4160 on: the third piece, 4160 columns to the left
      rw [dif_neg h2]
      refine (piece 2 (show (2 : Nat) < 3 by decide) S8x4096 _ rfl rfl 4160 rfl (ix2 p ⟨j.val - 4160, by omega⟩)
        (fun b hb => ?_) ?_).trans (variance_block_apply s0 s1 s2 mu var p ⟨j.val - 4160, by omega⟩)
      · match b with
        | ⟨0, _⟩ => rfl
        | ⟨1, _⟩ => exact absurd rfl hb
      · show 4160 + (j.val - 4160) = j.val
        omega

end Cert.KernelIdeal.Epilogue

end
-- ==== Proof.KSoftmax.lean ====
import proofs.«110436_j6837587935988_1_alg».proof.Proof.Gen.KernelIdeal.Skeleton
import proofs.«110436_j6837587935988_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open Cert.KernelIdeal Cert.KernelIdeal.Gen

namespace Cert.KernelIdeal.Bridge

/-! ## Layout: a row vector spread over a block, a column kept along the last axis -/

/-- A vector of 64 entries viewed as [1,1,64] and spread over the block [8,1024,64] reads, at (p, r, k), its
    entry k. -/
theorem spreadRow_apply {α : Type} (v : S64.Idx → α) (p : Fin 8) (r : Fin 1024) (k : Fin 64) :
    broadcastTo S8x1024x64 (shapeCast S1x1x64 v shapeCasts_S64_S1x1x64) broadcasts_S1x1x64_S8x1024x64 (ix3 p r k)
      = v (ix1 k) := by
  refine (broadcastTo_apply _ broadcasts_S1x1x64_S8x1024x64 (ix3 p r k)
    (ix3 (⟨0, Nat.one_pos⟩ : Fin 1) (⟨0, Nat.one_pos⟩ : Fin 1) k) (fun a => match a with
      | ⟨0, _⟩ => by show 0 = if (1 : Nat) = 1 then 0 else p.val; rw [if_pos rfl]
      | ⟨1, _⟩ => by show 0 = if (1 : Nat) = 1 then 0 else r.val; rw [if_pos rfl]
      | ⟨2, _⟩ => by show k.val = if (64 : Nat) = 1 then 0 else k.val; rw [if_neg (by decide)])).trans ?_
  refine shapeCast_apply v shapeCasts_S64_S1x1x64 _ (ix1 k) ?_
  rw [Shape.rowMajor_val_one, Shape.rowMajor_val_three]
  show k.val = (0 * 1 + 0) * 64 + k.val
  omega

/-- A per-row value [8,1024] viewed as a column [8,1024,1] and spread along the last axis reads, at (p, r, k),
    the row's value. -/
theorem keepLast_apply {α : Type} (m : S8x1024.Idx → α) (p : Fin 8) (r : Fin 1024) (k : Fin 64) :
    broadcastTo S8x1024x64 (shapeCast S8x1024x1 m shapeCasts_S8x1024_S8x1024x1) broadcasts_S8x1024x1_S8x1024x64 (ix3 p r k)
      = m (ix2 p r) := by
  refine (broadcastTo_apply _ broadcasts_S8x1024x1_S8x1024x64 (ix3 p r k)
    (ix3 p r (⟨0, Nat.one_pos⟩ : Fin 1)) (fun a => match a with
      | ⟨0, _⟩ => by show p.val = if (8 : Nat) = 1 then 0 else p.val; rw [if_neg (by decide)]
      | ⟨1, _⟩ => by show r.val = if (1024 : Nat) = 1 then 0 else r.val; rw [if_neg (by decide)]
      | ⟨2, _⟩ => by show 0 = if (1 : Nat) = 1 then 0 else k.val; rw [if_pos rfl])).trans ?_
  refine shapeCast_apply m shapeCasts_S8x1024_S8x1024x1 _ (ix2 p r) ?_
  rw [Shape.rowMajor_val_two, Shape.rowMajor_val_three]
  show p.val * 1024 + r.val = (p.val * 1024 + r.val) * 1 + 0
  omega

/-! ## Reductions: the maximum and the sum of a row, the sum over the samples -/

/-- The maximum over the last axis, from minus infinity, at (p, r): the fold of `max` over the row's 64 entries. -/
theorem rowMaxReduce_apply (y : FVec Ideal S8x1024x64 .f32) (p : Fin 8) (r : Fin 1024) :
    multiReduction (F := Ideal) .maximumf [2] S8x1024 y 0xFF800000#32 reduces_S8x1024x64_S8x1024 (.inl rfl) rfl (ix2 p r)
      = (Finset.univ : Finset (Fin 64)).fold max (Ideal.ofBits .f32 0xFF800000#32) (fun k => y (ix3 p r k)) := by
  refine (Ideal.multiReduction_maximumf_single y _ reduces_S8x1024x64_S8x1024 (.inl rfl) rfl (ix2 p r)).trans ?_
  show (Finset.univ : Finset (Fin 64)).fold max (Ideal.ofBits .f32 0xFF800000#32)
      (fun k => y (reduces_S8x1024x64_S8x1024.lift (ix2 p r) k)) = _
  refine congrArg (fun f => (Finset.univ : Finset (Fin 64)).fold max (Ideal.ofBits .f32 0xFF800000#32) f)
    (funext fun k => congrArg y (funext fun a => Fin.ext ?_))
  match a with
  | ⟨0, _⟩ => rfl
  | ⟨1, _⟩ => rfl
  | ⟨2, _⟩ => rfl

/-- The sum over the last axis at (p, r): the sum of the row's 64 entries. -/
theorem rowSumReduce_apply (y : FVec Ideal S8x1024x64 .f32) (p : Fin 8) (r : Fin 1024) :
    multiReduction (F := Ideal) .add [2] S8x1024 y 0x00000000#32 reduces_S8x1024x64_S8x1024 (.inl rfl) rfl (ix2 p r)
      = ∑ k : Fin 64, y (ix3 p r k) := by
  refine (Ideal.multiReduction_add_single y _ reduces_S8x1024x64_S8x1024 (.inl rfl) rfl (ix2 p r)).trans ?_
  show ∑ k : Fin 64, y (reduces_S8x1024x64_S8x1024.lift (ix2 p r) k) = _
  refine Finset.sum_congr rfl fun k _ => congrArg y (funext fun a => Fin.ext ?_)
  match a with
  | ⟨0, _⟩ => rfl
  | ⟨1, _⟩ => rfl
  | ⟨2, _⟩ => rfl

/-- The sum over the sample axis at (p, k): the sum over the block's 1024 samples. -/
theorem sampleSumReduce_apply (y : FVec Ideal S8x1024x64 .f32) (p : Fin 8) (k : Fin 64) :
    multiReduction (F := Ideal) .add [1] S8x64 y 0x00000000#32 reduces_S8x1024x64_S8x64 (.inl rfl) rfl (ix2 p k)
      = ∑ r : Fin 1024, y (ix3 p r k) := by
  refine (Ideal.multiReduction_add_single y _ reduces_S8x1024x64_S8x64 (.inl rfl) rfl (ix2 p k)).trans ?_
  show ∑ r : Fin 1024, y (reduces_S8x1024x64_S8x64.lift (ix2 p k) r) = _
  refine Finset.sum_congr rfl fun r _ => congrArg y (funext fun a => Fin.ext ?_)
  match a with
  | ⟨0, _⟩ => rfl
  | ⟨1, _⟩ => rfl
  | ⟨2, _⟩ => rfl

/-! ## The batched product over the samples -/

/-- The left operand's index of the batched product, axis by axis: batch, sample (contracted), component. -/
theorem lhs_batched_0 (i : S8x64x64.Idx) (q : dot_S8x1024x64_S8x1024x64_S8x64x64_1_1_2_2_0_0.contr.Idx) :
    (dot_S8x1024x64_S8x1024x64_S8x64x64_1_1_2_2_0_0.lhsIdx i q 0).val = (i 0).val := by
  unfold DotDims.lhsIdx
  rw [dif_pos (show (0 : Fin S8x1024x64.rank) ∈ dot_S8x1024x64_S8x1024x64_S8x64x64_1_1_2_2_0_0.lhsBatch by decide)]
  rfl
theorem lhs_batched_1 (i : S8x64x64.Idx) (q : dot_S8x1024x64_S8x1024x64_S8x64x64_1_1_2_2_0_0.contr.Idx) :
    (dot_S8x1024x64_S8x1024x64_S8x64x64_1_1_2_2_0_0.lhsIdx i q 1).val = (q ⟨0, by decide⟩).val :=
  dot_S8x1024x64_S8x1024x64_S8x64x64_1_1_2_2_0_0.lhsIdx_val_of_single rfl i q
theorem lhs_batched_2 (i : S8x64x64.Idx) (q : dot_S8x1024x64_S8x1024x64_S8x64x64_1_1_2_2_0_0.contr.Idx) :
    (dot_S8x1024x64_S8x1024x64_S8x64x64_1_1_2_2_0_0.lhsIdx i q 2).val = (i 1).val := by
  unfold DotDims.lhsIdx
  rw [dif_neg (show ¬(2 : Fin S8x1024x64.rank) ∈ dot_S8x1024x64_S8x1024x64_S8x64x64_1_1_2_2_0_0.lhsBatch by decide), dif_pos (show (2 : Fin S8x1024x64.rank) ∈ dot_S8x1024x64_S8x1024x64_S8x64x64_1_1_2_2_0_0.lhsNonContracting by decide)]
  rfl
/-- The right operand's index: batch, sample (contracted), feature. -/
theorem rhs_batched_0 (i : S8x64x64.Idx) (q : dot_S8x1024x64_S8x1024x64_S8x64x64_1_1_2_2_0_0.contr.Idx) :
    (dot_S8x1024x64_S8x1024x64_S8x64x64_1_1_2_2_0_0.rhsIdx i q 0).val = (i 0).val := by
  unfold DotDims.rhsIdx
  rw [dif_pos (show (0 : Fin S8x1024x64.rank) ∈ dot_S8x1024x64_S8x1024x64_S8x64x64_1_1_2_2_0_0.rhsBatch by decide)]
  rfl
theorem rhs_batched_1 (i : S8x64x64.Idx) (q : dot_S8x1024x64_S8x1024x64_S8x64x64_1_1_2_2_0_0.contr.Idx) :
    (dot_S8x1024x64_S8x1024x64_S8x64x64_1_1_2_2_0_0.rhsIdx i q 1).val = (q ⟨0, by decide⟩).val :=
  dot_S8x1024x64_S8x1024x64_S8x64x64_1_1_2_2_0_0.rhsIdx_val_of_single rfl i q
theorem rhs_batched_2 (i : S8x64x64.Idx) (q : dot_S8x1024x64_S8x1024x64_S8x64x64_1_1_2_2_0_0.contr.Idx) :
    (dot_S8x1024x64_S8x1024x64_S8x64x64_1_1_2_2_0_0.rhsIdx i q 2).val = (i 2).val := by
  unfold DotDims.rhsIdx
  rw [dif_neg (show ¬(2 : Fin S8x1024x64.rank) ∈ dot_S8x1024x64_S8x1024x64_S8x64x64_1_1_2_2_0_0.rhsBatch by decide), dif_pos (show (2 : Fin S8x1024x64.rank) ∈ dot_S8x1024x64_S8x1024x64_S8x64x64_1_1_2_2_0_0.rhsNonContracting by decide)]
  rfl

/-- The batched product into the zero block at (p, k, d): the sum over the samples r of the left operand at
    (p, r, k) times the right operand at (p, r, d). -/
theorem batchedProduct_apply (a b : FVec Ideal S8x1024x64 .bf16) (p : Fin 8) (k d : Fin 64) :
    matmul (F := Ideal) dot_S8x1024x64_S8x1024x64_S8x64x64_1_1_2_2_0_0 none a b (constant (F := Ideal) S8x64x64 .f32 0x00000000#32) (ix3 p k d)
      = ∑ r : Fin 1024, a (ix3 p r k) * b (ix3 p r d) := by
  refine (Ideal.matmul_constant_zero_apply dot_S8x1024x64_S8x1024x64_S8x64x64_1_1_2_2_0_0 none a b (ix3 p k d)).trans ?_
  rw [← Equiv.sum_comp (ValueIdx.contrEquiv1 dot_S8x1024x64_S8x1024x64_S8x64x64_1_1_2_2_0_0 1024 rfl rfl).symm]
  refine Finset.sum_congr rfl fun r _ => ?_
  have hr := ValueIdx.contrEquiv1_symm_val dot_S8x1024x64_S8x1024x64_S8x64x64_1_1_2_2_0_0 1024 rfl rfl r
  have el : dot_S8x1024x64_S8x1024x64_S8x64x64_1_1_2_2_0_0.lhsIdx (ix3 p k d) ((ValueIdx.contrEquiv1 dot_S8x1024x64_S8x1024x64_S8x64x64_1_1_2_2_0_0 1024 rfl rfl).symm r) = ix3 p r k := funext fun x => Fin.ext (by
    match x with
    | ⟨0, _⟩ => exact lhs_batched_0 _ _
    | ⟨1, _⟩ => exact (lhs_batched_1 _ _).trans hr
    | ⟨2, _⟩ => exact lhs_batched_2 _ _)
  have er : dot_S8x1024x64_S8x1024x64_S8x64x64_1_1_2_2_0_0.rhsIdx (ix3 p k d) ((ValueIdx.contrEquiv1 dot_S8x1024x64_S8x1024x64_S8x64x64_1_1_2_2_0_0 1024 rfl rfl).symm r) = ix3 p r d := funext fun x => Fin.ext (by
    match x with
    | ⟨0, _⟩ => exact rhs_batched_0 _ _
    | ⟨1, _⟩ => exact (rhs_batched_1 _ _).trans hr
    | ⟨2, _⟩ => exact rhs_batched_2 _ _)
  rw [el, er]

/-! ## The softmax of a block of logits -/

/-- The logits of a block: the log-densities plus the log-weights, the latter spread over the block. -/
def logits (v39 : FVec Ideal S8x1024x64 .f32) (v40 : FVec Ideal S64 .f32) : FVec Ideal S8x1024x64 .f32 :=
  addf v39 (broadcastTo S8x1024x64 (shapeCast S1x1x64 (log (F := Ideal) v40) shapeCasts_S64_S1x1x64) broadcasts_S1x1x64_S8x1024x64)

theorem logits_apply (v39 : FVec Ideal S8x1024x64 .f32) (v40 : FVec Ideal S64 .f32)
    (p : Fin 8) (r : Fin 1024) (k : Fin 64) :
    logits v39 v40 (ix3 p r k) = v39 (ix3 p r k) + Ideal.log (v40 (ix1 k)) := by
  show v39 (ix3 p r k)
      + broadcastTo S8x1024x64 (shapeCast S1x1x64 (log (F := Ideal) v40) shapeCasts_S64_S1x1x64) broadcasts_S1x1x64_S8x1024x64 (ix3 p r k) = _
  have e : broadcastTo S8x1024x64 (shapeCast S1x1x64 (log (F := Ideal) v40) shapeCasts_S64_S1x1x64) broadcasts_S1x1x64_S8x1024x64 (ix3 p r k)
      = Ideal.log (v40 (ix1 k)) := spreadRow_apply (log (F := Ideal) v40) p r k
  exact congrArg (v39 (ix3 p r k) + ·) e

/-- Each row's largest logit: the maximum of minus infinity and the row's reduction from minus infinity. -/
def rowMaxes (L : FVec Ideal S8x1024x64 .f32) : FVec Ideal S8x1024 .f32 :=
  maximumf (broadcast S8x1024 (Scalar.ofBits (F := Ideal) .f32 0xFF800000#32))
    (multiReduction (F := Ideal) .maximumf [2] S8x1024 L 0xFF800000#32 reduces_S8x1024x64_S8x1024 (.inl rfl) rfl)

theorem rowMaxes_apply (L : FVec Ideal S8x1024x64 .f32) (p : Fin 8) (r : Fin 1024) :
    rowMaxes L (ix2 p r) = Cert.Fisher.rowMax (fun k => L (ix3 p r k)) := by
  unfold rowMaxes Cert.Fisher.rowMax
  refine (maximumf_apply _ _ (ix2 p r)).trans ?_
  exact congrArg (max (Ideal.ofBits .f32 0xFF800000#32)) (rowMaxReduce_apply L p r)

/-- The exponentials of the logits, each less its row's largest. -/
def shiftedExp (L : FVec Ideal S8x1024x64 .f32) : FVec Ideal S8x1024x64 .f32 :=
  exp (subf L (broadcastTo S8x1024x64 (shapeCast S8x1024x1 (rowMaxes L) shapeCasts_S8x1024_S8x1024x1)
    broadcasts_S8x1024x1_S8x1024x64))

theorem shiftedExp_apply (L : FVec Ideal S8x1024x64 .f32) (p : Fin 8) (r : Fin 1024) (k : Fin 64) :
    shiftedExp L (ix3 p r k) = Ideal.exp (L (ix3 p r k) - Cert.Fisher.rowMax (fun k' => L (ix3 p r k'))) := by
  show Ideal.exp (L (ix3 p r k)
      - broadcastTo S8x1024x64 (shapeCast S8x1024x1 (rowMaxes L) shapeCasts_S8x1024_S8x1024x1)
          broadcasts_S8x1024x1_S8x1024x64 (ix3 p r k)) = _
  exact congrArg (fun m => Ideal.exp (L (ix3 p r k) - m)) ((keepLast_apply (rowMaxes L) p r k).trans (rowMaxes_apply L p r))

/-- The softmax of every row of a block: the shifted exponentials over their row's sum. -/
def blockSoftmax (L : FVec Ideal S8x1024x64 .f32) : FVec Ideal S8x1024x64 .f32 :=
  divf (shiftedExp L)
    (broadcastTo S8x1024x64
      (shapeCast S8x1024x1
        (multiReduction (F := Ideal) .add [2] S8x1024 (shiftedExp L) 0x00000000#32 reduces_S8x1024x64_S8x1024 (.inl rfl) rfl)
        shapeCasts_S8x1024_S8x1024x1)
      broadcasts_S8x1024x1_S8x1024x64)

theorem blockSoftmax_apply (L : FVec Ideal S8x1024x64 .f32) (p : Fin 8) (r : Fin 1024) (k : Fin 64) :
    blockSoftmax L (ix3 p r k) = Cert.Fisher.softmax (fun k' => L (ix3 p r k')) k := by
  show Ideal.div (shiftedExp L (ix3 p r k))
      (broadcastTo S8x1024x64
        (shapeCast S8x1024x1
          (multiReduction (F := Ideal) .add [2] S8x1024 (shiftedExp L) 0x00000000#32 reduces_S8x1024x64_S8x1024 (.inl rfl) rfl)
          shapeCasts_S8x1024_S8x1024x1)
        broadcasts_S8x1024x1_S8x1024x64 (ix3 p r k)) = _
  unfold Cert.Fisher.softmax
  refine congrArg₂ Ideal.div (shiftedExp_apply L p r k) ?_
  refine (keepLast_apply _ p r k).trans ((rowSumReduce_apply (shiftedExp L) p r).trans ?_)
  exact Finset.sum_congr rfl fun k' _ => shiftedExp_apply L p r k'

/-- The kernel's responsibilities are the block softmax of the logits. -/
theorem pay14_eq_blockSoftmax (v39 : FVec Ideal S8x1024x64 .f32) (v40 : Vec Ideal S64 .f32) :
    k0_pay14 (F := Ideal) v39 v40 = blockSoftmax (logits v39 v40) := rfl

/-- The responsibilities of a block of samples: the softmax over the components of the log-densities plus
    the log-weights. -/
theorem softmax_apply (v39 : FVec Ideal S8x1024x64 .f32) (v40 : Vec Ideal S64 .f32)
    (p : Fin 8) (r : Fin 1024) (k : Fin 64) :
    k0_pay14 (F := Ideal) v39 v40 (ix3 p r k)
      = Cert.Fisher.softmax (fun k' => v39 (ix3 p r k') + Ideal.log (v40 (ix1 k'))) k := by
  rw [pay14_eq_blockSoftmax]
  refine (blockSoftmax_apply (logits v39 v40) p r k).trans ?_
  exact congrArg (fun L => Cert.Fisher.softmax L k) (funext fun k' => logits_apply v39 v40 p r k')

/-! ## The accumulating payloads -/

/-- The block's responsibilities summed over its samples, added to what was accumulated before. -/
theorem accResp_apply (v39 : FVec Ideal S8x1024x64 .f32) (v40 : Vec Ideal S64 .f32) (v60 : Vec Ideal S8x64 .f32)
    (p : Fin 8) (k : Fin 64) :
    k0_pay16 (F := Ideal) v39 v40 v60 (ix2 p k)
      = v60 (ix2 p k) + ∑ r : Fin 1024, k0_pay14 (F := Ideal) v39 v40 (ix3 p r k) := by
  unfold k0_pay16
  refine (congrFun (shapeCast_self _ shapeCasts_S8x64_S8x64) (ix2 p k)).trans ?_
  exact congrArg (v60 (ix2 p k) + ·) (sampleSumReduce_apply (k0_pay14 (F := Ideal) v39 v40) p k)

/-- The responsibility-weighted sum of a second block `w` (the features, or their squares) over the samples,
    added to what was accumulated before. -/
theorem accWeighted_apply (w : FVec Ideal S8x1024x64 .bf16) (v39 : FVec Ideal S8x1024x64 .f32) (v40 : Vec Ideal S64 .f32)
    (acc : Vec Ideal S8x64x64 .f32) (p : Fin 8) (k d : Fin 64) :
    k0_pay17 (F := Ideal) w v39 v40 acc (ix3 p k d)
      = acc (ix3 p k d) + ∑ r : Fin 1024, k0_pay14 (F := Ideal) v39 v40 (ix3 p r k) * w (ix3 p r d) := by
  unfold k0_pay17
  refine (congrFun (shapeCast_self _ shapeCasts_S8x64x64_S8x64x64) (ix3 p k d)).trans ?_
  refine congrArg (acc (ix3 p k d) + ·) ?_
  -- the left operand is the responsibilities narrowed to bf16, which at the extended reals changes nothing
  exact (batchedProduct_apply (k0_pay15 (F := Ideal) v39 v40) w p k d).trans
    (Finset.sum_congr rfl fun r _ => rfl)

/-- The two accumulating payloads are one function. -/
theorem pay18_eq_pay17 (w : FVec Ideal S8x1024x64 .bf16) (v39 : FVec Ideal S8x1024x64 .f32) (v40 : Vec Ideal S64 .f32)
    (acc : Vec Ideal S8x64x64 .f32) : k0_pay18 (F := Ideal) w v39 v40 acc = k0_pay17 (F := Ideal) w v39 v40 acc := rfl

end Cert.KernelIdeal.Bridge

end
-- ==== Proof.KFold.lean ====
/-
  The kernel's value: what its three accumulators hold after the last grid step of a batch block, and so
  what its result array holds after the run.

  Grid step `t` = `16·q + s` works on batch rows `8·q … 8·q + 7` and samples `1024·s … 1024·s + 1023`; the
  parameter windows hold the whole parameter arrays. Each step adds to the accumulators the sums over its
  1024 samples of the responsibilities, of the responsibilities times the features and times the squared
  features (the first step of a block adds them to the cleared accumulators). After the block's sixteenth
  step an accumulator therefore holds `0 +` the sum over the steps of the steps' sums, which is the sum over
  all 16384 samples; the epilogue turns the three sums into the three gradient blocks, and the write-backs
  at the last steps of the two batch blocks tile the result array.
-/
import proofs.«110436_j6837587935988_1_alg».proof.Proof.Gen.KernelIdeal.Value
import proofs.«110436_j6837587935988_1_alg».proof.Proof.KPieces
import proofs.«110436_j6837587935988_1_alg».proof.Proof.Spec
import proofs.«110436_j6837587935988_1_alg».proof.Proof.KLogProb
import proofs.«110436_j6837587935988_1_alg».proof.Proof.KEpilogue
import proofs.«110436_j6837587935988_1_alg».proof.Proof.KSoftmax
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.KernelIdeal.Value

variable (m : (ℓ : Loc nD τ sig) → Buf (Elt Ideal) ℓ)

/-- The four argument arrays of core `c`. -/
abbrev xArr (c : Dev nD) : Vec Ideal S16x16384x64 .f32 := m ((c : Thread nD τ).loc main_arg0)
abbrev piArr (c : Dev nD) : Vec Ideal S64 .f32 := m ((c : Thread nD τ).loc main_arg1)
abbrev muArr (c : Dev nD) : Vec Ideal S64x64 .f32 := m ((c : Thread nD τ).loc main_arg2)
abbrev varArr (c : Dev nD) : Vec Ideal S64x64 .f32 := m ((c : Thread nD τ).loc main_arg3)

/-- The blocks the four input windows hold at grid step `t`, at their literal types. -/
abbrev xBlk (c : Dev nD) (t : Fin cfg0.N) : Vec Ideal S8x1024x64 .f32 := iblk m c 0 t
abbrev piBlk (c : Dev nD) (t : Fin cfg0.N) : Vec Ideal S64 .f32 := iblk m c 1 t
abbrev muBlk (c : Dev nD) (t : Fin cfg0.N) : Vec Ideal S64x64 .f32 := iblk m c 2 t
abbrev varBlk (c : Dev nD) (t : Fin cfg0.N) : Vec Ideal S64x64 .f32 := iblk m c 3 t

/-- Grid step `t` is step `t % 16` along the samples of batch block `t / 16`. -/
theorem xIndex : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem piIndex : ∀ t : Fin cfg0.N, win0_1.index t 0 = 0 :=
  (by decide +kernel : ∀ t : Fin grid0.N, win0_1.index t 0 = 0)
theorem muIndex : ∀ t : Fin cfg0.N, win0_2.index t 0 = 0 ∧ win0_2.index t 1 = 0 :=
  (by decide +kernel : ∀ t : Fin grid0.N, win0_2.index t 0 = 0 ∧ win0_2.index t 1 = 0)
theorem varIndex : ∀ t : Fin cfg0.N, win0_3.index t 0 = 0 ∧ win0_3.index t 1 = 0 :=
  (by decide +kernel : ∀ t : Fin grid0.N, win0_3.index t 0 = 0 ∧ win0_3.index t 1 = 0)

/-- The sample block of step `t`: rows `8·(t/16) …` of the batch, samples `1024·(t%16) …`. -/
theorem xBlk_apply (c : Dev nD) (t : Fin cfg0.N) (p : Fin 8) (r : Fin 1024) (d : Fin 64)
    (hb : 8 * (t.val / 16) + p.val < 16) (hn : 1024 * (t.val % 16) + r.val < 16384) :
    xBlk m c t (ix3 p r d) = xArr m c (ix3 ⟨8 * (t.val / 16) + p.val, hb⟩ ⟨1024 * (t.val % 16) + r.val, hn⟩ d) := by
  unfold xBlk iblk
  rw [View.read_apply]
  show V m c main_arg0 _ = m (c.tc.loc main_arg0) _
  unfold V
  congr 1
  funext a
  apply Fin.ext
  match a with
  | ⟨0, _⟩ => show win0_0.index t 0 * 8 + 1 * p.val = 8 * (t.val / 16) + p.val; rw [(xIndex t).1]; omega
  | ⟨1, _⟩ => show win0_0.index t 1 * 1024 + 1 * r.val = 1024 * (t.val % 16) + r.val; rw [(xIndex t).2.1]; omega
  | ⟨2, _⟩ => show win0_0.index t 2 * 64 + 1 * d.val = d.val; rw [(xIndex t).2.2]; omega

/-- The parameter windows hold the whole parameter arrays at every step. -/
theorem piBlk_eq (c : Dev nD) (t : Fin cfg0.N) : piBlk m c t = piArr m c := by
  funext j
  unfold piBlk iblk
  rw [View.read_apply]
  show V m c main_arg1 _ = m (c.tc.loc main_arg1) _
  unfold V
  congr 1
  funext a
  apply Fin.ext
  match a with
  | ⟨0, _⟩ => show win0_1.index t 0 * 64 + 1 * (j 0).val = (j 0).val; rw [piIndex t]; omega

theorem muBlk_eq (c : Dev nD) (t : Fin cfg0.N) : muBlk m c t = muArr m c := by
  funext j
  unfold muBlk iblk
  rw [View.read_apply]
  show V m c main_arg2 _ = m (c.tc.loc main_arg2) _
  unfold V
  congr 1
  funext a
  apply Fin.ext
  match a with
  | ⟨0, _⟩ => show win0_2.index t 0 * 64 + 1 * (j 0).val = (j 0).val; rw [(muIndex t).1]; omega
  | ⟨1, _⟩ => show win0_2.index t 1 * 64 + 1 * (j 1).val = (j 1).val; rw [(muIndex t).2]; omega

theorem varBlk_eq (c : Dev nD) (t : Fin cfg0.N) : varBlk m c t = varArr m c := by
  funext j
  unfold varBlk iblk
  rw [View.read_apply]
  show V m c main_arg3 _ = m (c.tc.loc main_arg3) _
  unfold V
  congr 1
  funext a
  apply Fin.ext
  match a with
  | ⟨0, _⟩ => show win0_3.index t 0 * 64 + 1 * (j 0).val = (j 0).val; rw [(varIndex t).1]; omega
  | ⟨1, _⟩ => show win0_3.index t 1 * 64 + 1 * (j 1).val = (j 1).val; rw [(varIndex t).2]; omega

/-- The responsibilities the body computes from the blocks of step `t` are those of the batch rows and samples the
    step covers. -/
theorem tileResp (c : Dev nD) (t : Fin cfg0.N) (p : Fin 8) (r : Fin 1024) (k : Fin 64)
    (hb : 8 * (t.val / 16) + p.val < 16) (hn : 1024 * (t.val % 16) + r.val < 16384) :
    k0_pay14 (F := Ideal) (k0_pay13 (xBlk m c t) (varBlk m c t) (muBlk m c t)) (piBlk m c t) (ix3 p r k)
      = Cert.Fisher.gamma (xArr m c) (piArr m c) (muArr m c) (varArr m c)
          ⟨8 * (t.val / 16) + p.val, hb⟩ ⟨1024 * (t.val % 16) + r.val, hn⟩ k := by
  rw [Bridge.softmax_apply]
  unfold Cert.Fisher.gamma Cert.Fisher.resp
  refine congrArg (fun L => Cert.Fisher.softmax L k) (funext fun k' => ?_)
  rw [Bridge.logProb_apply, piBlk_eq, muBlk_eq, varBlk_eq]
  refine congrArg (fun xr => Cert.Fisher.logProb _ _ xr k' + _) (funext fun d => ?_)
  exact xBlk_apply m c t p r d hb hn

/-- What step `n` adds to the summed responsibilities of its batch block (nothing past the grid). -/
def add0 (c : Dev nD) (n : ℕ) (i : S8x64.Idx) : EReal :=
  if h : n < cfg0.N then
    ∑ r : Fin 1024, k0_pay14 (F := Ideal) (k0_pay13 (xBlk m c ⟨n, h⟩) (varBlk m c ⟨n, h⟩) (muBlk m c ⟨n, h⟩)) (piBlk m c ⟨n, h⟩)
      (ix3 (i 0 : Fin 8) r (i 1 : Fin 64))
  else 0

/-- A step that is not the first of its batch block adds its block's responsibilities to what the step before left. -/
theorem scAt0_0_step (c : Dev nD) (n : ℕ) (hb : n < cfg0.N) (acc : Vec Ideal S8x64 .f32) (hn0 : ¬n % 16 = 0) (i : S8x64.Idx) :
    scAt0_0 m c n hb acc i = acc i + add0 m c n i := by
  obtain ⟨p, k, rfl⟩ : ∃ (p : Fin 8) (k : Fin 64), i = ix2 p k := ⟨i 0, i 1, eq_ix2 i⟩
  unfold scAt0_0 add0
  rw [dif_neg hn0, dif_pos hb]
  by_cases h1 : n % 16 = 15
  · rw [dif_pos h1, Pieces.sout_C_0]
    exact Bridge.accResp_apply _ _ _ p k
  · rw [dif_neg h1, Pieces.sout_B_0]
    exact Bridge.accResp_apply _ _ _ p k

/-- The cleared accumulators hold zero. -/
theorem pay8_apply (i : S8x64.Idx) : k0_pay8 (F := Ideal) i = 0 := by
  unfold k0_pay8
  rw [shapeCast_self]
  exact Ideal.ofBits_zero_f32
theorem pay9_apply (i : S8x64x64.Idx) : k0_pay9 (F := Ideal) i = 0 := by
  unfold k0_pay9
  rw [shapeCast_self]
  exact Ideal.ofBits_zero_f32
theorem pay10_apply (i : S8x64x64.Idx) : k0_pay10 (F := Ideal) i = 0 := by
  unfold k0_pay10
  rw [shapeCast_self]
  exact Ideal.ofBits_zero_f32

/-- The first step of a batch block clears the accumulator and adds its block's responsibilities to the zero. -/
theorem scAt0_0_reset (c : Dev nD) (n : ℕ) (hb : n < cfg0.N) (acc : Vec Ideal S8x64 .f32) (hn0 : n % 16 = 0) (i : S8x64.Idx) :
    scAt0_0 m c n hb acc i = 0 + add0 m c n i := by
  obtain ⟨p, k, rfl⟩ : ∃ (p : Fin 8) (k : Fin 64), i = ix2 p k := ⟨i 0, i 1, eq_ix2 i⟩
  unfold scAt0_0 add0
  rw [dif_pos hn0, dif_neg (by omega), dif_pos hb, Pieces.sout_A_0]
  refine (Bridge.accResp_apply _ _ _ p k).trans ?_
  rw [pay8_apply]

/-- The summed responsibilities after step `t`: the contributions of the steps of `t`'s batch block up to `t`. -/
theorem acc0_after (c : Dev nD) (t : Fin cfg0.N) (i : S8x64.Idx) :
    (outsAt0 m c t.val t.isLt).2.1 i = 0 + ∑ s ∈ Finset.range (t.val % 16 + 1), add0 m c (16 * (t.val / 16) + s) i := by
  rw [soutsAt0_0_eq]
  exact Pipeline.accAt_add_apply (fun n h => scAt0_0 m c n h (VS0_0.read (Elt Ideal) VS0_0.junk)) (scAt0_0 m c)
    (fun _ => 0) (add0 m c) (16 * (t.val / 16)) 15
    (fun h i => scAt0_0_reset m c _ h _ (by omega) i)
    (fun n h acc i h1 h2 => scAt0_0_step m c n h acc (by omega) i)
    (t.val % 16) (by omega) _ i

/-- The truncated copies of the sample block and of its square, entry by entry. -/
theorem pay11_apply (x0 : Vec Ideal S8x1024x64 .f32) (j : S8x1024x64.Idx) : k0_pay11 (F := Ideal) x0 j = x0 j := rfl
theorem pay12_apply (x0 : Vec Ideal S8x1024x64 .f32) (j : S8x1024x64.Idx) : k0_pay12 (F := Ideal) x0 j = x0 j * x0 j := rfl

/-- What step `n` adds to the responsibility-weighted feature sums, and to the weighted squared-feature sums. -/
def add1 (c : Dev nD) (n : ℕ) (i : S8x64x64.Idx) : EReal :=
  if h : n < cfg0.N then
    ∑ r : Fin 1024, k0_pay14 (F := Ideal) (k0_pay13 (xBlk m c ⟨n, h⟩) (varBlk m c ⟨n, h⟩) (muBlk m c ⟨n, h⟩)) (piBlk m c ⟨n, h⟩)
        (ix3 (i 0 : Fin 8) r (i 1 : Fin 64)) * xBlk m c ⟨n, h⟩ (ix3 (i 0 : Fin 8) r (i 2 : Fin 64))
  else 0
def add2 (c : Dev nD) (n : ℕ) (i : S8x64x64.Idx) : EReal :=
  if h : n < cfg0.N then
    ∑ r : Fin 1024, k0_pay14 (F := Ideal) (k0_pay13 (xBlk m c ⟨n, h⟩) (varBlk m c ⟨n, h⟩) (muBlk m c ⟨n, h⟩)) (piBlk m c ⟨n, h⟩)
        (ix3 (i 0 : Fin 8) r (i 1 : Fin 64))
      * (xBlk m c ⟨n, h⟩ (ix3 (i 0 : Fin 8) r (i 2 : Fin 64)) * xBlk m c ⟨n, h⟩ (ix3 (i 0 : Fin 8) r (i 2 : Fin 64)))
  else 0

theorem scAt0_1_step (c : Dev nD) (n : ℕ) (hb : n < cfg0.N) (acc : Vec Ideal S8x64x64 .f32) (hn0 : ¬n % 16 = 0) (i : S8x64x64.Idx) :
    scAt0_1 m c n hb acc i = acc i + add1 m c n i := by
  obtain ⟨p, k, d, rfl⟩ : ∃ (p : Fin 8) (k d : Fin 64), i = ix3 p k d := ⟨i 0, i 1, i 2, eq_ix3 i⟩
  unfold scAt0_1 add1
  rw [dif_neg hn0, dif_pos hb]
  by_cases h1 : n % 16 = 15
  · rw [dif_pos h1, Pieces.sout_C_1]
    exact Bridge.accWeighted_apply _ _ _ _ p k d
  · rw [dif_neg h1, Pieces.sout_B_1]
    exact Bridge.accWeighted_apply _ _ _ _ p k d

theorem scAt0_1_reset (c : Dev nD) (n : ℕ) (hb : n < cfg0.N) (acc : Vec Ideal S8x64x64 .f32) (hn0 : n % 16 = 0) (i : S8x64x64.Idx) :
    scAt0_1 m c n hb acc i = 0 + add1 m c n i := by
  obtain ⟨p, k, d, rfl⟩ : ∃ (p : Fin 8) (k d : Fin 64), i = ix3 p k d := ⟨i 0, i 1, i 2, eq_ix3 i⟩
  unfold scAt0_1 add1
  rw [dif_pos hn0, dif_neg (by omega), dif_pos hb, Pieces.sout_A_1]
  refine (Bridge.accWeighted_apply _ _ _ _ p k d).trans ?_
  rw [pay9_apply]
  rfl

theorem scAt0_2_step (c : Dev nD) (n : ℕ) (hb : n < cfg0.N) (acc : Vec Ideal S8x64x64 .f32) (hn0 : ¬n % 16 = 0) (i : S8x64x64.Idx) :
    scAt0_2 m c n hb acc i = acc i + add2 m c n i := by
  obtain ⟨p, k, d, rfl⟩ : ∃ (p : Fin 8) (k d : Fin 64), i = ix3 p k d := ⟨i 0, i 1, i 2, eq_ix3 i⟩
  unfold scAt0_2 add2
  rw [dif_neg hn0, dif_pos hb]
  by_cases h1 : n % 16 = 15
  · rw [dif_pos h1, Pieces.sout_C_2, Bridge.pay18_eq_pay17]
    exact Bridge.accWeighted_apply _ _ _ _ p k d
  · rw [dif_neg h1, Pieces.sout_B_2, Bridge.pay18_eq_pay17]
    exact Bridge.accWeighted_apply _ _ _ _ p k d

theorem scAt0_2_reset (c : Dev nD) (n : ℕ) (hb : n < cfg0.N) (acc : Vec Ideal S8x64x64 .f32) (hn0 : n % 16 = 0) (i : S8x64x64.Idx) :
    scAt0_2 m c n hb acc i = 0 + add2 m c n i := by
  obtain ⟨p, k, d, rfl⟩ : ∃ (p : Fin 8) (k d : Fin 64), i = ix3 p k d := ⟨i 0, i 1, i 2, eq_ix3 i⟩
  unfold scAt0_2 add2
  rw [dif_pos hn0, dif_neg (by omega), dif_pos hb, Pieces.sout_A_2, Bridge.pay18_eq_pay17]
  refine (Bridge.accWeighted_apply _ _ _ _ p k d).trans ?_
  rw [pay10_apply]
  rfl

theorem acc1_after (c : Dev nD) (t : Fin cfg0.N) (i : S8x64x64.Idx) :
    (outsAt0 m c t.val t.isLt).2.2.1 i = 0 + ∑ s ∈ Finset.range (t.val % 16 + 1), add1 m c (16 * (t.val / 16) + s) i := by
  rw [soutsAt0_1_eq]
  exact Pipeline.accAt_add_apply (fun n h => scAt0_1 m c n h (VS0_1.read (Elt Ideal) VS0_1.junk)) (scAt0_1 m c)
    (fun _ => 0) (add1 m c) (16 * (t.val / 16)) 15
    (fun h i => scAt0_1_reset m c _ h _ (by omega) i)
    (fun n h acc i h1 h2 => scAt0_1_step m c n h acc (by omega) i)
    (t.val % 16) (by omega) _ i

theorem acc2_after (c : Dev nD) (t : Fin cfg0.N) (i : S8x64x64.Idx) :
    (outsAt0 m c t.val t.isLt).2.2.2 i = 0 + ∑ s ∈ Finset.range (t.val % 16 + 1), add2 m c (16 * (t.val / 16) + s) i := by
  rw [soutsAt0_2_eq]
  exact Pipeline.accAt_add_apply (fun n h => scAt0_2 m c n h (VS0_2.read (Elt Ideal) VS0_2.junk)) (scAt0_2 m c)
    (fun _ => 0) (add2 m c) (16 * (t.val / 16)) 15
    (fun h i => scAt0_2_reset m c _ h _ (by omega) i)
    (fun n h acc i h1 h2 => scAt0_2_step m c n h acc (by omega) i)
    (t.val % 16) (by omega) _ i

/-- A sum over the 16384 samples of a batch row, grouped into 16 runs of 1024 consecutive samples. -/
theorem sum_samples (f : Fin 16384 → EReal) :
    ∑ n : Fin 16384, f n = ∑ s : Fin 16, ∑ r : Fin 1024, f ⟨1024 * s.val + r.val, by have := s.isLt; have := r.isLt; omega⟩ := by
  rw [← Equiv.sum_comp (finProdFinEquiv : Fin 16 × Fin 1024 ≃ Fin (16 * 1024)) f, Fintype.sum_prod_type]
  refine Finset.sum_congr rfl fun s _ => Finset.sum_congr rfl fun r _ => congrArg f (Fin.ext ?_)
  show r.val + 1024 * s.val = 1024 * s.val + r.val
  omega

/-- The steps of batch block `q`: step `s` of the block is grid step `16·q + s`, covering batch rows `8·q …` and
    samples `1024·s …`. -/
theorem tileResp_at (c : Dev nD) (q : ℕ) (hq : q < 2) (s : Fin 16) (p : Fin 8) (r : Fin 1024) (k : Fin 64)
    (h : 16 * q + s.val < cfg0.N) :
    k0_pay14 (F := Ideal) (k0_pay13 (xBlk m c ⟨16 * q + s.val, h⟩) (varBlk m c ⟨16 * q + s.val, h⟩) (muBlk m c ⟨16 * q + s.val, h⟩))
        (piBlk m c ⟨16 * q + s.val, h⟩) (ix3 p r k)
      = Cert.Fisher.gamma (xArr m c) (piArr m c) (muArr m c) (varArr m c)
          ⟨8 * q + p.val, by have := p.isLt; omega⟩ ⟨1024 * s.val + r.val, by have := s.isLt; have := r.isLt; omega⟩ k := by
  have hs := s.isLt
  have e1 : (16 * q + s.val) / 16 = q := by omega
  have e2 : (16 * q + s.val) % 16 = s.val := by omega
  rw [tileResp m c ⟨16 * q + s.val, h⟩ p r k (by show 8 * ((16 * q + s.val) / 16) + p.val < 16; have := p.isLt; omega)
    (by show 1024 * ((16 * q + s.val) % 16) + r.val < 16384; have := r.isLt; omega)]
  congr 1
  · exact Fin.ext (by show 8 * ((16 * q + s.val) / 16) + p.val = 8 * q + p.val; rw [e1])
  · exact Fin.ext (by show 1024 * ((16 * q + s.val) % 16) + r.val = 1024 * s.val + r.val; rw [e2])

theorem xBlk_at (c : Dev nD) (q : ℕ) (hq : q < 2) (s : Fin 16) (p : Fin 8) (r : Fin 1024) (d : Fin 64)
    (h : 16 * q + s.val < cfg0.N) :
    xBlk m c ⟨16 * q + s.val, h⟩ (ix3 p r d)
      = xArr m c (ix3 ⟨8 * q + p.val, by have := p.isLt; omega⟩ ⟨1024 * s.val + r.val, by have := s.isLt; have := r.isLt; omega⟩ d) := by
  have hs := s.isLt
  have e1 : (16 * q + s.val) / 16 = q := by omega
  have e2 : (16 * q + s.val) % 16 = s.val := by omega
  rw [xBlk_apply m c ⟨16 * q + s.val, h⟩ p r d (by show 8 * ((16 * q + s.val) / 16) + p.val < 16; have := p.isLt; omega)
    (by show 1024 * ((16 * q + s.val) % 16) + r.val < 16384; have := r.isLt; omega)]
  congr 2
  · exact Fin.ext (by show 8 * ((16 * q + s.val) / 16) + p.val = 8 * q + p.val; rw [e1])
  · exact Fin.ext (by show 1024 * ((16 * q + s.val) % 16) + r.val = 1024 * s.val + r.val; rw [e2])

/-- After the last step of batch block `q` the three accumulators hold the block's rows' sums over all samples. -/
theorem acc0_last (c : Dev nD) (t : Fin cfg0.N) (h15 : t.val % 16 = 15) (p : Fin 8) (k : Fin 64) :
    (outsAt0 m c t.val t.isLt).2.1 (ix2 p k)
      = Cert.Fisher.sum0 (xArr m c) (piArr m c) (muArr m c) (varArr m c)
          ⟨8 * (t.val / 16) + p.val, by have := t.isLt; have : cfg0.N = 32 := N_0; have := p.isLt; omega⟩ k := by
  have hN : cfg0.N = 32 := N_0
  have ht := t.isLt
  rw [acc0_after, h15, zero_add, Finset.sum_range, Cert.Fisher.sum0, sum_samples]
  refine Finset.sum_congr rfl fun s _ => ?_
  have hb : 16 * (t.val / 16) + s.val < cfg0.N := by have := s.isLt; omega
  unfold add0
  rw [dif_pos hb]
  refine Finset.sum_congr rfl fun r _ => ?_
  exact tileResp_at m c (t.val / 16) (by omega) s p r k hb

theorem acc1_last (c : Dev nD) (t : Fin cfg0.N) (h15 : t.val % 16 = 15) (p : Fin 8) (k d : Fin 64) :
    (outsAt0 m c t.val t.isLt).2.2.1 (ix3 p k d)
      = Cert.Fisher.sum1 (xArr m c) (piArr m c) (muArr m c) (varArr m c)
          ⟨8 * (t.val / 16) + p.val, by have := t.isLt; have : cfg0.N = 32 := N_0; have := p.isLt; omega⟩ k d := by
  have hN : cfg0.N = 32 := N_0
  have ht := t.isLt
  rw [acc1_after, h15, zero_add, Finset.sum_range, Cert.Fisher.sum1, sum_samples]
  refine Finset.sum_congr rfl fun s _ => ?_
  have hb : 16 * (t.val / 16) + s.val < cfg0.N := by have := s.isLt; omega
  unfold add1
  rw [dif_pos hb]
  refine Finset.sum_congr rfl fun r _ => ?_
  show _ * xBlk m c ⟨16 * (t.val / 16) + s.val, hb⟩ (ix3 p r d) = _
  rw [tileResp_at m c (t.val / 16) (by omega) s p r k hb, xBlk_at m c (t.val / 16) (by omega) s p r d hb]

theorem acc2_last (c : Dev nD) (t : Fin cfg0.N) (h15 : t.val % 16 = 15) (p : Fin 8) (k d : Fin 64) :
    (outsAt0 m c t.val t.isLt).2.2.2 (ix3 p k d)
      = Cert.Fisher.sum2 (xArr m c) (piArr m c) (muArr m c) (varArr m c)
          ⟨8 * (t.val / 16) + p.val, by have := t.isLt; have : cfg0.N = 32 := N_0; have := p.isLt; omega⟩ k d := by
  have hN : cfg0.N = 32 := N_0
  have ht := t.isLt
  rw [acc2_after, h15, zero_add, Finset.sum_range, Cert.Fisher.sum2, sum_samples]
  refine Finset.sum_congr rfl fun s _ => ?_
  have hb : 16 * (t.val / 16) + s.val < cfg0.N := by have := s.isLt; omega
  unfold add2
  rw [dif_pos hb]
  refine Finset.sum_congr rfl fun r _ => ?_
  show _ * (xBlk m c ⟨16 * (t.val / 16) + s.val, hb⟩ (ix3 p r d) * xBlk m c ⟨16 * (t.val / 16) + s.val, hb⟩ (ix3 p r d)) = _
  rw [tileResp_at m c (t.val / 16) (by omega) s p r k hb, xBlk_at m c (t.val / 16) (by omega) s p r d hb]

/-- The output block the last step of batch block `t / 16` leaves: the Fisher vector's rows `8·(t/16) …`. -/
theorem outBlock_last (c : Dev nD) (t : Fin cfg0.N) (h15 : t.val % 16 = 15) (p : Fin 8) (j : Fin 8256) :
    (outsAt0 m c t.val t.isLt).1 (ix2 p j)
      = Cert.Fisher.fisher (xArr m c) (piArr m c) (muArr m c) (varArr m c)
          (ix2 ⟨8 * (t.val / 16) + p.val, by have := t.isLt; have : cfg0.N = 32 := N_0; have := p.isLt; omega⟩ j) := by
  have h0 : ¬t.val % 16 = 0 := by omega
  have e0 := congrArg (fun o => o.2.1) (outsAt0_C m c t h0 h15)
  have e1 := congrArg (fun o => o.2.2.1) (outsAt0_C m c t h0 h15)
  have e2 := congrArg (fun o => o.2.2.2) (outsAt0_C m c t h0 h15)
  have e4 := congrArg (fun o => o.1) (outsAt0_C m c t h0 h15)
  dsimp only at e0 e1 e2 e4
  rw [Pieces.sout_C_0] at e0
  rw [Pieces.sout_C_1] at e1
  rw [Pieces.sout_C_2] at e2
  rw [Pieces.out_C_4, ← e0, ← e1, ← e2] at e4
  rw [e4]
  refine (Epilogue.epilogue_apply (outsAt0 m c t.val t.isLt).2.1 (outsAt0 m c t.val t.isLt).2.2.1 (outsAt0 m c t.val t.isLt).2.2.2
    (piBlk m c t) (muBlk m c t) (varBlk m c t) p j).trans ?_
  rw [piBlk_eq, muBlk_eq, varBlk_eq]
  unfold Cert.Fisher.fisher
  by_cases h : j.val < 64
  · rw [dif_pos h, dif_pos (show ((ix2 (⟨8 * (t.val / 16) + p.val, _⟩ : Fin 16) j) 1).val < 64 from h)]
    unfold Cert.Fisher.gradPi
    rw [acc0_last m c t h15]
  · by_cases h2 : j.val < 4160
    · rw [dif_neg h, dif_pos h2, dif_neg (show ¬((ix2 (⟨8 * (t.val / 16) + p.val, _⟩ : Fin 16) j) 1).val < 64 from h),
        dif_pos (show ((ix2 (⟨8 * (t.val / 16) + p.val, _⟩ : Fin 16) j) 1).val < 4160 from h2)]
      unfold Cert.Fisher.gradMu
      rw [acc0_last m c t h15, acc1_last m c t h15]
    · rw [dif_neg h, dif_neg h2, dif_neg (show ¬((ix2 (⟨8 * (t.val / 16) + p.val, _⟩ : Fin 16) j) 1).val < 64 from h),
        dif_neg (show ¬((ix2 (⟨8 * (t.val / 16) + p.val, _⟩ : Fin 16) j) 1).val < 4160 from h2)]
      unfold Cert.Fisher.gradSigma
      rw [acc0_last m c t h15, acc1_last m c t h15, acc2_last m c t h15]

/-- What the result array holds after the run: the Fisher vector of the four arguments. -/
abbrev result (c : Dev nD) : Buf (Elt Ideal) ((c : Thread nD τ).loc main_v0) :=
  Cert.Fisher.fisher (xArr m c) (piArr m c) (muArr m c) (varArr m c)

/-- The output window's block index at step `t`: batch block `t / 16`, all columns. -/
theorem outIndex : ∀ t : Fin cfg0.N, win0_4.index t 0 = t.val / 16 ∧ win0_4.index t 1 = 0 :=
  (by decide +kernel : ∀ t : Fin grid0.N, win0_4.index t 0 = t.val / 16 ∧ win0_4.index t 1 = 0)

/-- The output blocks lie inside the array: a write-back moves a whole block. -/
theorem outExtent : ∀ t : Fin cfg0.N, win0_4.xsize (grid0.coords t) 0 = 8 ∧ win0_4.xsize (grid0.coords t) 1 = 8256 :=
  (by decide +kernel : ∀ t : Fin grid0.N, win0_4.xsize (grid0.coords t) 0 = 8 ∧ win0_4.xsize (grid0.coords t) 1 = 8256)

/-- Each write-back (at the last step of a batch block) writes the block of the Fisher vector it covers. -/
theorem flushed_eq (c : Dev nD) (t : Fin cfg0.N) (hf : (cfg0.win 4).flush t = true) :
    (dats m 0 c).flushed 4 t = ((cfg0.win 4).blk t).view.read (Elt Ideal) (result m c) := by
  have h15 : t.val % 16 = 15 := (flush0_4 t).mp hf
  rw [flushed4]
  funext y
  have hx := outExtent t
  have hy0 : (y 0).val < 8 := lt_of_lt_of_eq (y 0).isLt hx.1
  have hy1 : (y 1).val < 8256 := lt_of_lt_of_eq (y 1).isLt hx.2
  have eL : (cfg0.win 4).xinj (grid0.coords t) y = ix2 (⟨(y 0).val, hy0⟩ : Fin 8) (⟨(y 1).val, hy1⟩ : Fin 8256) :=
    funext fun a => Fin.ext (by match a with | ⟨0, _⟩ => rfl | ⟨1, _⟩ => rfl)
  show (outsAt0 m c t.val t.isLt).1 ((cfg0.win 4).xinj (grid0.coords t) y) = _
  rw [eL, outBlock_last m c t h15, View.read_apply]
  show _ = result m c _
  refine congrArg (result m c) (funext fun a => Fin.ext ?_)
  match a with
  | ⟨0, _⟩ => show 8 * (t.val / 16) + (y 0).val = win0_4.index t 0 * 8 + 1 * (y 0).val; rw [(outIndex t).1]; omega
  | ⟨1, _⟩ => show (y 1).val = win0_4.index t 1 * 8256 + 1 * (y 1).val; rw [(outIndex t).2]; omega

/-- Every entry of the result array lies in the block written back at the last step of its batch block. -/
theorem cover (i : S16x8256.Idx) : ∃ t : Fin cfg0.N, (cfg0.win 4).flush t = true ∧ i ∈ ((cfg0.win 4).blk t).view.set := by
  have hN : cfg0.N = 32 := N_0
  have h0 : (i 0 : Nat) < 16 := (i 0).isLt
  have h1 : (i 1 : Nat) < 8256 := (i 1).isLt
  let t : Fin cfg0.N := ⟨16 * ((i 0).val / 8) + 15, by omega⟩
  have ht : t.val = 16 * ((i 0).val / 8) + 15 := rfl
  refine ⟨t, (flush0_4 t).mpr (by rw [ht]; omega), ?_⟩
  show i ∈ ((View.whole main_v0).slice (win0_4.rect t)).set
  rw [View.set_slice_whole, Rect.mem_set_unit]
  intro a
  match a with
  | ⟨0, _⟩ =>
    show win0_4.index t 0 * win0_4.size 0 ≤ (i 0 : Nat) ∧ (i 0 : Nat) < win0_4.index t 0 * win0_4.size 0 + win0_4.xsize (grid0.coords t) 0
    rw [(outIndex t).1, (outExtent t).1, ht]
    show (16 * ((i 0).val / 8) + 15) / 16 * 8 ≤ (i 0 : Nat) ∧ (i 0 : Nat) < (16 * ((i 0).val / 8) + 15) / 16 * 8 + 8
    omega
  | ⟨1, _⟩ =>
    show win0_4.index t 1 * win0_4.size 1 ≤ (i 1 : Nat) ∧ (i 1 : Nat) < win0_4.index t 1 * win0_4.size 1 + win0_4.xsize (grid0.coords t) 1
    rw [(outIndex t).2, (outExtent t).2]
    omega

/-- So the result array ends holding the Fisher vector of the arguments. -/
theorem final (c : Dev nD) : (dats m 0 c).arrAt 4 cfg0.N = result m c :=
  (dats m 0 c).arrAt_eq_of_cover 4 (result m c) (flushed_eq m c) cover

/-- The kernel's run, read: the result array at the Fisher vector, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Fold
end
-- ==== Proof.LibNary3.lean ====
/-
  A general lemma about the host operation that takes a literal family of THREE operand references (what a
  three-piece concatenation prints to): its result, read at its own result buffer, is its function applied to the
  three operands' contents, each AT ITS OWN REFERENCE. The library states the same for a family of four; for three
  it has only the form with the family under a binder, where no later rewriting can reach the operands' contents.
  With it, one simplification pass that reads a straight line of host operations at a buffer, as the library's does,
  with this lemma in the place of the binder form.
-/
import Idealize.ShloMosaic.Lib.StableHlo.Run

noncomputable section

namespace Idealize.ShloMosaic.StableHlo

variable {τ : Topo} {sig : RefSig} {Val : EltTy → Type}
variable {x a b y : Ref sig .tc}

/-- A host operation over the literal family of three references `![x, a, b]`: what it leaves at its result buffer is its
    function at the three operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, its result reference left out of the simplifier's index (the form a simplification pass can use). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- Reads `after ops V` at a buffer for a literal list of host operations, in one simplification pass: each operation's
    result at its own buffer is its function's value, at any other reference what was there; an operation over a literal
    family of three references is read by `nary3_result'`. -/
macro "after_results3" : tactic =>
  `(tactic| (simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.RefRun.lean ====
import proofs.«110436_j6837587935988_1_alg».proof.Proof.RefRead
import proofs.«110436_j6837587935988_1_alg».proof.Proof.LibNary3
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open Cert.ReferenceIdeal Cert.ReferenceIdeal.Gen Cert.ReferenceIdeal.ReadP Cert.ReferenceIdeal.ValueP Idealize.ShloMosaic.TcCoe Idealize.SL.Sem Idealize.ShloMosaic.StableHlo

namespace Cert.ReferenceIdeal.RefRun

variable {F : FTy → Type} [FloatOps F]

/-! The reference computes its result in 92 operations. They are read here in seven consecutive stretches, named after what
they compute: the Mahalanobis distance, the logits, the softmax, the three moments of the responsibilities, the weight and
mean gradients, the variance gradient with the two flattenings, and the join of the three blocks. For each stretch and ANY
contents `W` of the buffers: if `W` holds the arguments `x0 … x3` and, at the earlier buffers the stretch reads, the
stages' values of `x0 … x3`, then after the stretch the buffers that later stretches read hold their stages' values of
`x0 … x3`, and the arguments are where they were. Chained from the launch contents, the seven statements give the result
buffer as the last stage's value of the arguments. -/

/-- The operations up to the Mahalanobis distance: `%1 = 1/var`, `%2 = x²`, the three sums over the features
    `%3 = Σ x²/var`, `%5 = Σ x·mu/var`, `%11 = Σ mu²/var`, and `%14 = (%3 - 2·%5) + %11`. -/
abbrev free_opsMahalanobis : List (HloOp τ sig (Elt F)) :=
  [ nullary main_cst (constant S_ .f32 0x3F800000#32),
    unary main_cst main_v0 (broadcastInDim S64x64 ![] bcast_S_S64x64 : (⟨S_, .f32⟩ : BufTy).Contents (Elt F) → (⟨S64x64, .f32⟩ : BufTy).Contents (Elt F)),
    binary main_v0 main_arg3 main_v1 (Host.divf : (⟨S64x64, .f32⟩ : BufTy).Contents (Elt F) → (⟨S64x64, .f32⟩ : BufTy).Contents (Elt F) → (⟨S64x64, .f32⟩ : BufTy).Contents (Elt F)),
    binary main_arg0 main_arg0 main_v2 (mulf : (⟨S16x16384x64, .f32⟩ : BufTy).Contents (Elt F) → (⟨S16x16384x64, .f32⟩ : BufTy).Contents (Elt F) → (⟨S16x16384x64, .f32⟩ : BufTy).Contents (Elt F)),
    binary main_v2 main_v1 main_v3 ((fun l r => Host.dotGeneral dot_S16x16384x64_S64x64_S16x16384x64_2_1_01_0_n_n none l r) : (⟨S16x16384x64, .f32⟩ : BufTy).Contents (Elt F) → (⟨S64x64, .f32⟩ : BufTy).Contents (Elt F) → (⟨S16x16384x64, .f32⟩ : BufTy).Contents (Elt F)),
    binary main_arg2 main_v1 main_v4 (mulf : (⟨S64x64, .f32⟩ : BufTy).Contents (Elt F) → (⟨S64x64, .f32⟩ : BufTy).Contents (Elt F) → (⟨S64x64, .f32⟩ : BufTy).Contents (Elt F)),
    binary main_arg0 main_v4 main_v5 ((fun l r => Host.dotGeneral dot_S16x16384x64_S64x64_S16x16384x64_2_1_01_0_n_n none l r) : (⟨S16x16384x64, .f32⟩ : BufTy).Contents (Elt F) → (⟨S64x64, .f32⟩ : BufTy).Contents (Elt F) → (⟨S16x16384x64, .f32⟩ : BufTy).Contents (Elt F)),
    nullary main_cst_0 (constant S_ .f32 0x40000000#32),
    unary main_cst_0 main_v6 (broadcastInDim S16x16384x64 ![] bcast_S_S16x16384x64 : (⟨S_, .f32⟩ : BufTy).Contents (Elt F) → (⟨S16x16384x64, .f32⟩ : BufTy).Contents (Elt F)),
    binary main_v6 main_v5 main_v7 (mulf : (⟨S16x16384x64, .f32⟩ : BufTy).Contents (Elt F) → (⟨S16x16384x64, .f32⟩ : BufTy).Contents (Elt F) → (⟨S16x16384x64, .f32⟩ : BufTy).Contents (Elt F)),
    binary main_v3 main_v7 main_v8 (subf : (⟨S16x16384x64, .f32⟩ : BufTy).Contents (Elt F) → (⟨S16x16384x64, .f32⟩ : BufTy).Contents (Elt F) → (⟨S16x16384x64, .f32⟩ : BufTy).Contents (Elt F)),
    binary main_arg2 main_arg2 main_v9 (mulf : (⟨S64x64, .f32⟩ : BufTy).Contents (Elt F) → (⟨S64x64, .f32⟩ : BufTy).Contents (Elt F) → (⟨S64x64, .f32⟩ : BufTy).Contents (Elt F)),
    binary main_v9 main_v1 main_v10 (mulf : (⟨S64x64, .f32⟩ : BufTy).Contents (Elt F) → (⟨S64x64, .f32⟩ : BufTy).Contents (Elt F) → (⟨S64x64, .f32⟩ : BufTy).Contents (Elt F)),
    nullary main_cst_1 (constant S_ .f32 0x00000000#32),
    binary main_v10 main_cst_1 main_v11 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    unary main_v11 main_v12 (broadcastInDim S1x1x64 ![2] bcast_S64_S1x1x64_2 : (⟨S64, .f32⟩ : BufTy).Contents (Elt F) → (⟨S1x1x64, .f32⟩ : BufTy).Contents (Elt F)),
    unary main_v12 main_v13 (broadcastInDim S16x16384x64 ![0, 1, 2] bcast_S1x1x64_S16x16384x64_0_1_2 : (⟨S1x1x64, .f32⟩ : BufTy).Contents (Elt F) → (⟨S16x16384x64, .f32⟩ : BufTy).Contents (Elt F)),
    binary main_v8 main_v13 main_v14 (addf : (⟨S16x16384x64, .f32⟩ : BufTy).Contents (Elt F) → (⟨S16x16384x64, .f32⟩ : BufTy).Contents (Elt F) → (⟨S16x16384x64, .f32⟩ : BufTy).Contents (Elt F)) ]

/-- The operations from the distance to the logits: `%16 = Σ log var`, `%18 = c + %16`, `%21 = %18 + %14`,
    `%23 = -1/2 · %21`, and `%27 = %23 + log pi`. -/
abbrev free_opsLogits : List (HloOp τ sig (Elt F)) :=
  [ unary main_arg3 main_v15 (Host.log : (⟨S64x64, .f32⟩ : BufTy).Contents (Elt F) → (⟨S64x64, .f32⟩ : BufTy).Contents (Elt F)),
    nullary main_cst_2 (constant S_ .f32 0x00000000#32),
    binary main_v15 main_cst_2 main_v16 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    nullary main_cst_3 (constant S_ .f32 0x42EB3F8E#32),
    unary main_cst_3 main_v17 (broadcastInDim S64 ![] bcast_S_S64 : (⟨S_, .f32⟩ : BufTy).Contents (Elt F) → (⟨S64, .f32⟩ : BufTy).Contents (Elt F)),
    binary main_v17 main_v16 main_v18 (addf : (⟨S64, .f32⟩ : BufTy).Contents (Elt F) → (⟨S64, .f32⟩ : BufTy).Contents (Elt F) → (⟨S64, .f32⟩ : BufTy).Contents (Elt F)),
    unary main_v18 main_v19 (broadcastInDim S1x1x64 ![2] bcast_S64_S1x1x64_2 : (⟨S64, .f32⟩ : BufTy).Contents (Elt F) → (⟨S1x1x64, .f32⟩ : BufTy).Contents (Elt F)),
    unary main_v19 main_v20 (broadcastInDim S16x16384x64 ![0, 1, 2] bcast_S1x1x64_S16x16384x64_0_1_2 : (⟨S1x1x64, .f32⟩ : BufTy).Contents (Elt F) → (⟨S16x16384x64, .f32⟩ : BufTy).Contents (Elt F)),
    binary main_v20 main_v14 main_v21 (addf : (⟨S16x16384x64, .f32⟩ : BufTy).Contents (Elt F) → (⟨S16x16384x64, .f32⟩ : BufTy).Contents (Elt F) → (⟨S16x16384x64, .f32⟩ : BufTy).Contents (Elt F)),
    nullary main_cst_4 (constant S_ .f32 0xBF000000#32),
    unary main_cst_4 main_v22 (broadcastInDim S16x16384x64 ![] bcast_S_S16x16384x64 : (⟨S_, .f32⟩ : BufTy).Contents (Elt F) → (⟨S16x16384x64, .f32⟩ : BufTy).Contents (Elt F)),
    binary main_v22 main_v21 main_v23 (mulf : (⟨S16x16384x64, .f32⟩ : BufTy).Contents (Elt F) → (⟨S16x16384x64, .f32⟩ : BufTy).Contents (Elt F) → (⟨S16x16384x64, .f32⟩ : BufTy).Contents (Elt F)),
    unary main_arg1 main_v24 (Host.log : (⟨S64, .f32⟩ : BufTy).Contents (Elt F) → (⟨S64, .f32⟩ : BufTy).Contents (Elt F)),
    unary main_v24 main_v25 (broadcastInDim S1x1x64 ![2] bcast_S64_S1x1x64_2 : (⟨S64, .f32⟩ : BufTy).Contents (Elt F) → (⟨S1x1x64, .f32⟩ : BufTy).Contents (Elt F)),
    unary main_v25 main_v26 (broadcastInDim S16x16384x64 ![0, 1, 2] bcast_S1x1x64_S16x16384x64_0_1_2 : (⟨S1x1x64, .f32⟩ : BufTy).Contents (Elt F) → (⟨S16x16384x64, .f32⟩ : BufTy).Contents (Elt F)),
    binary main_v23 main_v26 main_v27 (addf : (⟨S16x16384x64, .f32⟩ : BufTy).Contents (Elt F) → (⟨S16x16384x64, .f32⟩ : BufTy).Contents (Elt F) → (⟨S16x16384x64, .f32⟩ : BufTy).Contents (Elt F)) ]

/-- The softmax over the components: the row maximum `%30` of the logits, `%34 = exp (%27 - %30)`, its row sum `%35`,
    and the responsibilities `%38 = %34 / %35`. -/
abbrev free_opsSoftmax : List (HloOp τ sig (Elt F)) :=
  [ nullary main_cst_5 (constant S_ .f32 0xFF800000#32),
    binary main_v27 main_cst_5 main_v28 ((fun x v => Host.reduce FloatOps.maximumf x v reducesTo_S16x16384x64_S16x16384_d2 h_S_) : (⟨S16x16384x64, .f32⟩ : BufTy).Contents (Elt F) → (⟨S_, .f32⟩ : BufTy).Contents (Elt F) → (⟨S16x16384, .f32⟩ : BufTy).Contents (Elt F)),
    nullary main_cst_6 (constant S_ .f32 0xFF800000#32),
    unary main_cst_6 main_v29 (broadcastInDim S16x16384 ![] bcast_S_S16x16384 : (⟨S_, .f32⟩ : BufTy).Contents (Elt F) → (⟨S16x16384, .f32⟩ : BufTy).Contents (Elt F)),
    binary main_v29 main_v28 main_v30 (maximumf : (⟨S16x16384, .f32⟩ : BufTy).Contents (Elt F) → (⟨S16x16384, .f32⟩ : BufTy).Contents (Elt F) → (⟨S16x16384, .f32⟩ : BufTy).Contents (Elt F)),
    unary main_v30 main_v31 (broadcastInDim S16x16384x1 ![0, 1] bcast_S16x16384_S16x16384x1_0_1 : (⟨S16x16384, .f32⟩ : BufTy).Contents (Elt F) → (⟨S16x16384x1, .f32⟩ : BufTy).Contents (Elt F)),
    unary main_v31 main_v32 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    binary main_v27 main_v32 main_v33 (subf : (⟨S16x16384x64, .f32⟩ : BufTy).Contents (Elt F) → (⟨S16x16384x64, .f32⟩ : BufTy).Contents (Elt F) → (⟨S16x16384x64, .f32⟩ : BufTy).Contents (Elt F)),
    unary main_v33 main_v34 (Host.exp : (⟨S16x16384x64, .f32⟩ : BufTy).Contents (Elt F) → (⟨S16x16384x64, .f32⟩ : BufTy).Contents (Elt F)),
    nullary main_cst_7 (constant S_ .f32 0x00000000#32),
    binary main_v34 main_cst_7 main_v35 ((fun x v => Host.reduceAdd x v reducesTo_S16x16384x64_S16x16384_d2 h_S_) : (⟨S16x16384x64, .f32⟩ : BufTy).Contents (Elt F) → (⟨S_, .f32⟩ : BufTy).Contents (Elt F) → (⟨S16x16384, .f32⟩ : BufTy).Contents (Elt F)),
    unary main_v35 main_v36 (broadcastInDim S16x16384x1 ![0, 1] bcast_S16x16384_S16x16384x1_0_1 : (⟨S16x16384, .f32⟩ : BufTy).Contents (Elt F) → (⟨S16x16384x1, .f32⟩ : BufTy).Contents (Elt F)),
    unary main_v36 main_v37 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    binary main_v34 main_v37 main_v38 (Host.divf : (⟨S16x16384x64, .f32⟩ : BufTy).Contents (Elt F) → (⟨S16x16384x64, .f32⟩ : BufTy).Contents (Elt F) → (⟨S16x16384x64, .f32⟩ : BufTy).Contents (Elt F)) ]

/-- The three moments of the responsibilities over the samples, each divided by the sample count:
    `%41 = (Σ_n γ) / N`, `%44 = (Σ_n γ·x) / N`, `%47 = (Σ_n γ·x²) / N`. -/
abbrev free_opsMoments : List (HloOp τ sig (Elt F)) :=
  [ nullary main_cst_8 (constant S_ .f32 0x00000000#32),
    binary main_v38 main_cst_8 main_v39 ((fun x v => Host.reduceAdd x v reducesTo_S16x16384x64_S16x64_d1 h_S_) : (⟨S16x16384x64, .f32⟩ : BufTy).Contents (Elt F) → (⟨S_, .f32⟩ : BufTy).Contents (Elt F) → (⟨S16x64, .f32⟩ : BufTy).Contents (Elt F)),
    nullary main_cst_9 (constant S_ .f32 0x46800000#32),
    unary main_cst_9 main_v40 (broadcastInDim S16x64 ![] bcast_S_S16x64 : (⟨S_, .f32⟩ : BufTy).Contents (Elt F) → (⟨S16x64, .f32⟩ : BufTy).Contents (Elt F)),
    binary main_v39 main_v40 main_v41 (Host.divf : (⟨S16x64, .f32⟩ : BufTy).Contents (Elt F) → (⟨S16x64, .f32⟩ : BufTy).Contents (Elt F) → (⟨S16x64, .f32⟩ : BufTy).Contents (Elt F)),
    binary main_v38 main_arg0 main_v42 ((fun l r => Host.dotGeneral dot_S16x16384x64_S16x16384x64_S16x64x64_1_1_2_2_0_0 none l r) : (⟨S16x16384x64, .f32⟩ : BufTy).Contents (Elt F) → (⟨S16x16384x64, .f32⟩ : BufTy).Contents (Elt F) → (⟨S16x64x64, .f32⟩ : BufTy).Contents (Elt F)),
    nullary main_cst_10 (constant S_ .f32 0x46800000#32),
    unary main_cst_10 main_v43 (broadcastInDim S16x64x64 ![] bcast_S_S16x64x64 : (⟨S_, .f32⟩ : BufTy).Contents (Elt F) → (⟨S16x64x64, .f32⟩ : BufTy).Contents (Elt F)),
    binary main_v42 main_v43 main_v44 (Host.divf : (⟨S16x64x64, .f32⟩ : BufTy).Contents (Elt F) → (⟨S16x64x64, .f32⟩ : BufTy).Contents (Elt F) → (⟨S16x64x64, .f32⟩ : BufTy).Contents (Elt F)),
    binary main_v38 main_v2 main_v45 ((fun l r => Host.dotGeneral dot_S16x16384x64_S16x16384x64_S16x64x64_1_1_2_2_0_0 none l r) : (⟨S16x16384x64, .f32⟩ : BufTy).Contents (Elt F) → (⟨S16x16384x64, .f32⟩ : BufTy).Contents (Elt F) → (⟨S16x64x64, .f32⟩ : BufTy).Contents (Elt F)),
    nullary main_cst_11 (constant S_ .f32 0x46800000#32),
    unary main_cst_11 main_v46 (broadcastInDim S16x64x64 ![] bcast_S_S16x64x64 : (⟨S_, .f32⟩ : BufTy).Contents (Elt F) → (⟨S16x64x64, .f32⟩ : BufTy).Contents (Elt F)),
    binary main_v45 main_v46 main_v47 (Host.divf : (⟨S16x64x64, .f32⟩ : BufTy).Contents (Elt F) → (⟨S16x64x64, .f32⟩ : BufTy).Contents (Elt F) → (⟨S16x64x64, .f32⟩ : BufTy).Contents (Elt F)) ]

/-- The gradients with respect to the weights and the means: `%50 = %41 - pi`, the zeroth moment as a column `%51`,
    and `%56 = %44 - %41 · mu`. -/
abbrev free_opsGradMean : List (HloOp τ sig (Elt F)) :=
  [ unary main_arg1 main_v48 (broadcastInDim S1x64 ![1] bcast_S64_S1x64_1 : (⟨S64, .f32⟩ : BufTy).Contents (Elt F) → (⟨S1x64, .f32⟩ : BufTy).Contents (Elt F)),
    unary main_v48 main_v49 (broadcastInDim S16x64 ![0, 1] bcast_S1x64_S16x64_0_1 : (⟨S1x64, .f32⟩ : BufTy).Contents (Elt F) → (⟨S16x64, .f32⟩ : BufTy).Contents (Elt F)),
    binary main_v41 main_v49 main_v50 (subf : (⟨S16x64, .f32⟩ : BufTy).Contents (Elt F) → (⟨S16x64, .f32⟩ : BufTy).Contents (Elt F) → (⟨S16x64, .f32⟩ : BufTy).Contents (Elt F)),
    unary main_v41 main_v51 (broadcastInDim S16x64x1 ![0, 1] bcast_S16x64_S16x64x1_0_1 : (⟨S16x64, .f32⟩ : BufTy).Contents (Elt F) → (⟨S16x64x1, .f32⟩ : BufTy).Contents (Elt F)),
    unary main_arg2 main_v52 (broadcastInDim S1x64x64 ![1, 2] bcast_S64x64_S1x64x64_1_2 : (⟨S64x64, .f32⟩ : BufTy).Contents (Elt F) → (⟨S1x64x64, .f32⟩ : BufTy).Contents (Elt F)),
    unary main_v51 main_v53 (broadcastInDim S16x64x64 ![0, 1, 2] bcast_S16x64x1_S16x64x64_0_1_2 : (⟨S16x64x1, .f32⟩ : BufTy).Contents (Elt F) → (⟨S16x64x64, .f32⟩ : BufTy).Contents (Elt F)),
    unary main_v52 main_v54 (broadcastInDim S16x64x64 ![0, 1, 2] bcast_S1x64x64_S16x64x64_0_1_2 : (⟨S1x64x64, .f32⟩ : BufTy).Contents (Elt F) → (⟨S16x64x64, .f32⟩ : BufTy).Contents (Elt F)),
    binary main_v53 main_v54 main_v55 (mulf : (⟨S16x64x64, .f32⟩ : BufTy).Contents (Elt F) → (⟨S16x64x64, .f32⟩ : BufTy).Contents (Elt F) → (⟨S16x64x64, .f32⟩ : BufTy).Contents (Elt F)),
    binary main_v44 main_v55 main_v56 (subf : (⟨S16x64x64, .f32⟩ : BufTy).Contents (Elt F) → (⟨S16x64x64, .f32⟩ : BufTy).Contents (Elt F) → (⟨S16x64x64, .f32⟩ : BufTy).Contents (Elt F)) ]

/-- The gradient with respect to the variances, `%74 = ((-%47 - %41 · mu²) + %41 · var) + (2 · %44) · mu`, and the mean and
    variance gradients flattened to rows of 4096 (`%75`, `%76`). -/
abbrev free_opsGradVar : List (HloOp τ sig (Elt F)) :=
  [ unary main_v47 main_v57 (Host.negf : (⟨S16x64x64, .f32⟩ : BufTy).Contents (Elt F) → (⟨S16x64x64, .f32⟩ : BufTy).Contents (Elt F)),
    binary main_arg2 main_arg2 main_v58 (mulf : (⟨S64x64, .f32⟩ : BufTy).Contents (Elt F) → (⟨S64x64, .f32⟩ : BufTy).Contents (Elt F) → (⟨S64x64, .f32⟩ : BufTy).Contents (Elt F)),
    unary main_v58 main_v59 (broadcastInDim S1x64x64 ![1, 2] bcast_S64x64_S1x64x64_1_2 : (⟨S64x64, .f32⟩ : BufTy).Contents (Elt F) → (⟨S1x64x64, .f32⟩ : BufTy).Contents (Elt F)),
    unary main_v51 main_v60 (broadcastInDim S16x64x64 ![0, 1, 2] bcast_S16x64x1_S16x64x64_0_1_2 : (⟨S16x64x1, .f32⟩ : BufTy).Contents (Elt F) → (⟨S16x64x64, .f32⟩ : BufTy).Contents (Elt F)),
    unary main_v59 main_v61 (broadcastInDim S16x64x64 ![0, 1, 2] bcast_S1x64x64_S16x64x64_0_1_2 : (⟨S1x64x64, .f32⟩ : BufTy).Contents (Elt F) → (⟨S16x64x64, .f32⟩ : BufTy).Contents (Elt F)),
    binary main_v60 main_v61 main_v62 (mulf : (⟨S16x64x64, .f32⟩ : BufTy).Contents (Elt F) → (⟨S16x64x64, .f32⟩ : BufTy).Contents (Elt F) → (⟨S16x64x64, .f32⟩ : BufTy).Contents (Elt F)),
    binary main_v57 main_v62 main_v63 (subf : (⟨S16x64x64, .f32⟩ : BufTy).Contents (Elt F) → (⟨S16x64x64, .f32⟩ : BufTy).Contents (Elt F) → (⟨S16x64x64, .f32⟩ : BufTy).Contents (Elt F)),
    unary main_arg3 main_v64 (broadcastInDim S1x64x64 ![1, 2] bcast_S64x64_S1x64x64_1_2 : (⟨S64x64, .f32⟩ : BufTy).Contents (Elt F) → (⟨S1x64x64, .f32⟩ : BufTy).Contents (Elt F)),
    unary main_v51 main_v65 (broadcastInDim S16x64x64 ![0, 1, 2] bcast_S16x64x1_S16x64x64_0_1_2 : (⟨S16x64x1, .f32⟩ : BufTy).Contents (Elt F) → (⟨S16x64x64, .f32⟩ : BufTy).Contents (Elt F)),
    unary main_v64 main_v66 (broadcastInDim S16x64x64 ![0, 1, 2] bcast_S1x64x64_S16x64x64_0_1_2 : (⟨S1x64x64, .f32⟩ : BufTy).Contents (Elt F) → (⟨S16x64x64, .f32⟩ : BufTy).Contents (Elt F)),
    binary main_v65 main_v66 main_v67 (mulf : (⟨S16x64x64, .f32⟩ : BufTy).Contents (Elt F) → (⟨S16x64x64, .f32⟩ : BufTy).Contents (Elt F) → (⟨S16x64x64, .f32⟩ : BufTy).Contents (Elt F)),
    binary main_v63 main_v67 main_v68 (addf : (⟨S16x64x64, .f32⟩ : BufTy).Contents (Elt F) → (⟨S16x64x64, .f32⟩ : BufTy).Contents (Elt F) → (⟨S16x64x64, .f32⟩ : BufTy).Contents (Elt F)),
    nullary main_cst_12 (constant S_ .f32 0x40000000#32),
    unary main_cst_12 main_v69 (broadcastInDim S16x64x64 ![] bcast_S_S16x64x64 : (⟨S_, .f32⟩ : BufTy).Contents (Elt F) → (⟨S16x64x64, .f32⟩ : BufTy).Contents (Elt F)),
    binary main_v69 main_v44 main_v70 (mulf : (⟨S16x64x64, .f32⟩ : BufTy).Contents (Elt F) → (⟨S16x64x64, .f32⟩ : BufTy).Contents (Elt F) → (⟨S16x64x64, .f32⟩ : BufTy).Contents (Elt F)),
    unary main_arg2 main_v71 (broadcastInDim S1x64x64 ![1, 2] bcast_S64x64_S1x64x64_1_2 : (⟨S64x64, .f32⟩ : BufTy).Contents (Elt F) → (⟨S1x64x64, .f32⟩ : BufTy).Contents (Elt F)),
    unary main_v71 main_v72 (broadcastInDim S16x64x64 ![0, 1, 2] bcast_S1x64x64_S16x64x64_0_1_2 : (⟨S1x64x64, .f32⟩ : BufTy).Contents (Elt F) → (⟨S16x64x64, .f32⟩ : BufTy).Contents (Elt F)),
    binary main_v70 main_v72 main_v73 (mulf : (⟨S16x64x64, .f32⟩ : BufTy).Contents (Elt F) → (⟨S16x64x64, .f32⟩ : BufTy).Contents (Elt F) → (⟨S16x64x64, .f32⟩ : BufTy).Contents (Elt F)),
    binary main_v68 main_v73 main_v74 (addf : (⟨S16x64x64, .f32⟩ : BufTy).Contents (Elt F) → (⟨S16x64x64, .f32⟩ : BufTy).Contents (Elt F) → (⟨S16x64x64, .f32⟩ : BufTy).Contents (Elt F)),
    reshape main_v56 main_v75 rfl shapeCasts_S16x64x64_S16x4096,
    reshape main_v74 main_v76 rfl shapeCasts_S16x64x64_S16x4096 ]

/-- The three blocks joined along the second axis. -/
abbrev free_opsConcat : List (HloOp τ sig (Elt F)) :=
  [ nary ![main_v50, main_v75, main_v76] main_v77 (fun u => concatenate S16x8256 1 [⟨S16x64, u 0⟩, ⟨S16x4096, u 1⟩, ⟨S16x4096, u 2⟩] concatenates_S16x64_S16x4096_S16x4096_S16x8256_d1) ]

set_option maxRecDepth 8192 in
/-- The reference's operations are the seven stretches in a row. -/
theorem free_ops_eq : (ops : List (HloOp τ sig (Elt F)))
    = free_opsMahalanobis ++ (free_opsLogits ++ (free_opsSoftmax ++ (free_opsMoments ++ (free_opsGradMean ++ (free_opsGradVar ++ free_opsConcat))))) := rfl

/-- Running all the operations is running the seven stretches one after the other. -/
theorem free_after_eq (V : Valuation τ sig (Elt F)) :
    after ops V = after free_opsConcat (after free_opsGradVar (after free_opsGradMean (after free_opsMoments
      (after free_opsSoftmax (after free_opsLogits (after free_opsMahalanobis V)))))) := by
  rw [free_ops_eq, after_append, after_append, after_append, after_append, after_append, after_append]

/-- Through the Mahalanobis distance: from contents holding the four arguments, the operations leave the arguments where
    they were, the squared features `x²` at `%2` and the distance `Σ x²/var - 2 Σ x·mu/var + Σ mu²/var` at `%14`. -/
theorem free_mahalanobis (W : Valuation τ sig (Elt F))
    (x0 : (⟨S16x16384x64, .f32⟩ : BufTy).Contents (Elt F)) (x1 : (⟨S64, .f32⟩ : BufTy).Contents (Elt F)) (x2 x3 : (⟨S64x64, .f32⟩ : BufTy).Contents (Elt F))
    (h0 : W (Proc.devRef .tc main_arg0) = x0) (h1 : W (Proc.devRef .tc main_arg1) = x1)
    (h2 : W (Proc.devRef .tc main_arg2) = x2) (h3 : W (Proc.devRef .tc main_arg3) = x3) :
    after free_opsMahalanobis W (Proc.devRef .tc main_arg0) = x0
    ∧ after free_opsMahalanobis W (Proc.devRef .tc main_arg1) = x1
    ∧ after free_opsMahalanobis W (Proc.devRef .tc main_arg2) = x2
    ∧ after free_opsMahalanobis W (Proc.devRef .tc main_arg3) = x3
    ∧ after free_opsMahalanobis W (Proc.devRef .tc main_v2) = val_main_v2 (F := F) x0
    ∧ after free_opsMahalanobis W (Proc.devRef .tc main_v14) = val_main_v14 (F := F) x0 x2 x3 := by
  subst h0 h1 h2 h3
  refine ⟨?_, ?_, ?_, ?_, ?_, ?_⟩
  · after_results_simp
  · after_results_simp
  · after_results_simp
  · after_results_simp
  · after_results_simp <;> rfl
  · after_results_simp <;> rfl

/-- From the distance to the logits: `%27 = -1/2 · ((c + Σ log var) + %14) + log pi`; the arguments and `x²` stay. -/
theorem free_logits (W : Valuation τ sig (Elt F))
    (x0 : (⟨S16x16384x64, .f32⟩ : BufTy).Contents (Elt F)) (x1 : (⟨S64, .f32⟩ : BufTy).Contents (Elt F)) (x2 x3 : (⟨S64x64, .f32⟩ : BufTy).Contents (Elt F))
    (h0 : W (Proc.devRef .tc main_arg0) = x0) (h1 : W (Proc.devRef .tc main_arg1) = x1)
    (h2 : W (Proc.devRef .tc main_arg2) = x2) (h3 : W (Proc.devRef .tc main_arg3) = x3)
    (hv2 : W (Proc.devRef .tc main_v2) = val_main_v2 (F := F) x0)
    (hv14 : W (Proc.devRef .tc main_v14) = val_main_v14 (F := F) x0 x2 x3) :
    after free_opsLogits W (Proc.devRef .tc main_arg0) = x0
    ∧ after free_opsLogits W (Proc.devRef .tc main_arg1) = x1
    ∧ after free_opsLogits W (Proc.devRef .tc main_arg2) = x2
    ∧ after free_opsLogits W (Proc.devRef .tc main_arg3) = x3
    ∧ after free_opsLogits W (Proc.devRef .tc main_v2) = val_main_v2 (F := F) x0
    ∧ after free_opsLogits W (Proc.devRef .tc main_v27) = val_main_v27 (F := F) x0 x1 x2 x3 := by
  subst h0 h1 h2 h3
  refine ⟨?_, ?_, ?_, ?_, ?_, ?_⟩
  · after_results_simp
  · after_results_simp
  · after_results_simp
  · after_results_simp
  · after_results_simp; exact hv2
  · after_results_simp; rw [hv14]; rfl

/-- The softmax: the responsibilities `%38 = exp (%27 - max) / Σ exp (%27 - max)`; the arguments and `x²` stay. -/
theorem free_softmax (W : Valuation τ sig (Elt F))
    (x0 : (⟨S16x16384x64, .f32⟩ : BufTy).Contents (Elt F)) (x1 : (⟨S64, .f32⟩ : BufTy).Contents (Elt F)) (x2 x3 : (⟨S64x64, .f32⟩ : BufTy).Contents (Elt F))
    (h0 : W (Proc.devRef .tc main_arg0) = x0) (h1 : W (Proc.devRef .tc main_arg1) = x1)
    (h2 : W (Proc.devRef .tc main_arg2) = x2) (h3 : W (Proc.devRef .tc main_arg3) = x3)
    (hv2 : W (Proc.devRef .tc main_v2) = val_main_v2 (F := F) x0)
    (hv27 : W (Proc.devRef .tc main_v27) = val_main_v27 (F := F) x0 x1 x2 x3) :
    after free_opsSoftmax W (Proc.devRef .tc main_arg0) = x0
    ∧ after free_opsSoftmax W (Proc.devRef .tc main_arg1) = x1
    ∧ after free_opsSoftmax W (Proc.devRef .tc main_arg2) = x2
    ∧ after free_opsSoftmax W (Proc.devRef .tc main_arg3) = x3
    ∧ after free_opsSoftmax W (Proc.devRef .tc main_v2) = val_main_v2 (F := F) x0
    ∧ after free_opsSoftmax W (Proc.devRef .tc main_v38) = val_main_v38 (F := F) x0 x1 x2 x3 := by
  subst h0 h1 h2 h3
  refine ⟨?_, ?_, ?_, ?_, ?_, ?_⟩
  · after_results_simp
  · after_results_simp
  · after_results_simp
  · after_results_simp
  · after_results_simp; exact hv2
  · after_results_simp; rw [hv27]; rfl

/-- The moments: the responsibilities' sample means of `1`, `x` and `x²` at `%41`, `%44`, `%47`; the arguments stay. -/
theorem free_moments (W : Valuation τ sig (Elt F))
    (x0 : (⟨S16x16384x64, .f32⟩ : BufTy).Contents (Elt F)) (x1 : (⟨S64, .f32⟩ : BufTy).Contents (Elt F)) (x2 x3 : (⟨S64x64, .f32⟩ : BufTy).Contents (Elt F))
    (h0 : W (Proc.devRef .tc main_arg0) = x0) (h1 : W (Proc.devRef .tc main_arg1) = x1)
    (h2 : W (Proc.devRef .tc main_arg2) = x2) (h3 : W (Proc.devRef .tc main_arg3) = x3)
    (hv2 : W (Proc.devRef .tc main_v2) = val_main_v2 (F := F) x0)
    (hv38 : W (Proc.devRef .tc main_v38) = val_main_v38 (F := F) x0 x1 x2 x3) :
    after free_opsMoments W (Proc.devRef .tc main_arg0) = x0
    ∧ after free_opsMoments W (Proc.devRef .tc main_arg1) = x1
    ∧ after free_opsMoments W (Proc.devRef .tc main_arg2) = x2
    ∧ after free_opsMoments W (Proc.devRef .tc main_arg3) = x3
    ∧ after free_opsMoments W (Proc.devRef .tc main_v41) = val_main_v41 (F := F) x0 x1 x2 x3
    ∧ after free_opsMoments W (Proc.devRef .tc main_v44) = val_main_v44 (F := F) x0 x1 x2 x3
    ∧ after free_opsMoments W (Proc.devRef .tc main_v47) = val_main_v47 (F := F) x0 x1 x2 x3 := by
  subst h0 h1 h2 h3
  refine ⟨?_, ?_, ?_, ?_, ?_, ?_, ?_⟩
  · after_results_simp
  · after_results_simp
  · after_results_simp
  · after_results_simp
  · after_results_simp; rw [hv38]; rfl
  · after_results_simp; rw [hv38]; rfl
  · after_results_simp; rw [hv38, hv2]; rfl

/-- The weight and mean gradients: `%50 = %41 - pi` and `%56 = %44 - %41 · mu`, with `%41` as a column at `%51`; the
    arguments and the first and second moments stay. -/
theorem free_gradMean (W : Valuation τ sig (Elt F))
    (x0 : (⟨S16x16384x64, .f32⟩ : BufTy).Contents (Elt F)) (x1 : (⟨S64, .f32⟩ : BufTy).Contents (Elt F)) (x2 x3 : (⟨S64x64, .f32⟩ : BufTy).Contents (Elt F))
    (h0 : W (Proc.devRef .tc main_arg0) = x0) (h1 : W (Proc.devRef .tc main_arg1) = x1)
    (h2 : W (Proc.devRef .tc main_arg2) = x2) (h3 : W (Proc.devRef .tc main_arg3) = x3)
    (hv41 : W (Proc.devRef .tc main_v41) = val_main_v41 (F := F) x0 x1 x2 x3)
    (hv44 : W (Proc.devRef .tc main_v44) = val_main_v44 (F := F) x0 x1 x2 x3)
    (hv47 : W (Proc.devRef .tc main_v47) = val_main_v47 (F := F) x0 x1 x2 x3) :
    after free_opsGradMean W (Proc.devRef .tc main_arg0) = x0
    ∧ after free_opsGradMean W (Proc.devRef .tc main_arg1) = x1
    ∧ after free_opsGradMean W (Proc.devRef .tc main_arg2) = x2
    ∧ after free_opsGradMean W (Proc.devRef .tc main_arg3) = x3
    ∧ after free_opsGradMean W (Proc.devRef .tc main_v44) = val_main_v44 (F := F) x0 x1 x2 x3
    ∧ after free_opsGradMean W (Proc.devRef .tc main_v47) = val_main_v47 (F := F) x0 x1 x2 x3
    ∧ after free_opsGradMean W (Proc.devRef .tc main_v50) = val_main_v50 (F := F) x0 x1 x2 x3
    ∧ after free_opsGradMean W (Proc.devRef .tc main_v51) = val_main_v51 (F := F) x0 x1 x2 x3
    ∧ after free_opsGradMean W (Proc.devRef .tc main_v56) = val_main_v56 (F := F) x0 x1 x2 x3 := by
  subst h0 h1 h2 h3
  refine ⟨?_, ?_, ?_, ?_, ?_, ?_, ?_, ?_, ?_⟩
  · after_results_simp
  · after_results_simp
  · after_results_simp
  · after_results_simp
  · after_results_simp; exact hv44
  · after_results_simp; exact hv47
  · after_results_simp; rw [hv41]; rfl
  · after_results_simp; rw [hv41]; rfl
  · after_results_simp; rw [hv44, hv41]; rfl

/-- The variance gradient `%74 = ((-%47 - %41 · mu²) + %41 · var) + (2 · %44) · mu`; the mean gradients `%56` flattened
    row-major at `%75` and the variance gradients `%74` flattened row-major at `%76`; the arguments and the weight
    gradients stay. -/
theorem free_gradVar (W : Valuation τ sig (Elt F))
    (x0 : (⟨S16x16384x64, .f32⟩ : BufTy).Contents (Elt F)) (x1 : (⟨S64, .f32⟩ : BufTy).Contents (Elt F)) (x2 x3 : (⟨S64x64, .f32⟩ : BufTy).Contents (Elt F))
    (h0 : W (Proc.devRef .tc main_arg0) = x0) (h1 : W (Proc.devRef .tc main_arg1) = x1)
    (h2 : W (Proc.devRef .tc main_arg2) = x2) (h3 : W (Proc.devRef .tc main_arg3) = x3)
    (hv44 : W (Proc.devRef .tc main_v44) = val_main_v44 (F := F) x0 x1 x2 x3)
    (hv47 : W (Proc.devRef .tc main_v47) = val_main_v47 (F := F) x0 x1 x2 x3)
    (hv50 : W (Proc.devRef .tc main_v50) = val_main_v50 (F := F) x0 x1 x2 x3)
    (hv51 : W (Proc.devRef .tc main_v51) = val_main_v51 (F := F) x0 x1 x2 x3)
    (hv56 : W (Proc.devRef .tc main_v56) = val_main_v56 (F := F) x0 x1 x2 x3) :
    after free_opsGradVar W (Proc.devRef .tc main_arg0) = x0
    ∧ after free_opsGradVar W (Proc.devRef .tc main_arg1) = x1
    ∧ after free_opsGradVar W (Proc.devRef .tc main_arg2) = x2
    ∧ after free_opsGradVar W (Proc.devRef .tc main_arg3) = x3
    ∧ after free_opsGradVar W (Proc.devRef .tc main_v50) = val_main_v50 (F := F) x0 x1 x2 x3
    ∧ after free_opsGradVar W (Proc.devRef .tc main_v75) = val_main_v75 (F := F) x0 x1 x2 x3
    ∧ after free_opsGradVar W (Proc.devRef .tc main_v76) = val_main_v76 (F := F) x0 x1 x2 x3 := by
  subst h0 h1 h2 h3
  refine ⟨?_, ?_, ?_, ?_, ?_, ?_, ?_⟩
  · after_results_simp
  · after_results_simp
  · after_results_simp
  · after_results_simp
  · after_results_simp; exact hv50
  · after_results_simp; rw [hv56]; rfl
  · after_results_simp; rw [hv47, hv51, hv44]; rfl

/-- The result: per batch row the weight gradients, then the flattened mean gradients, then the flattened variance
    gradients; the arguments stay. -/
theorem free_concat (W : Valuation τ sig (Elt F))
    (x0 : (⟨S16x16384x64, .f32⟩ : BufTy).Contents (Elt F)) (x1 : (⟨S64, .f32⟩ : BufTy).Contents (Elt F)) (x2 x3 : (⟨S64x64, .f32⟩ : BufTy).Contents (Elt F))
    (h0 : W (Proc.devRef .tc main_arg0) = x0) (h1 : W (Proc.devRef .tc main_arg1) = x1)
    (h2 : W (Proc.devRef .tc main_arg2) = x2) (h3 : W (Proc.devRef .tc main_arg3) = x3)
    (hv50 : W (Proc.devRef .tc main_v50) = val_main_v50 (F := F) x0 x1 x2 x3)
    (hv75 : W (Proc.devRef .tc main_v75) = val_main_v75 (F := F) x0 x1 x2 x3)
    (hv76 : W (Proc.devRef .tc main_v76) = val_main_v76 (F := F) x0 x1 x2 x3) :
    after free_opsConcat W (Proc.devRef .tc main_arg0) = x0
    ∧ after free_opsConcat W (Proc.devRef .tc main_arg1) = x1
    ∧ after free_opsConcat W (Proc.devRef .tc main_arg2) = x2
    ∧ after free_opsConcat W (Proc.devRef .tc main_arg3) = x3
    ∧ after free_opsConcat W (Proc.devRef .tc main_v77) = val_main_v77 (F := F) x0 x1 x2 x3 := by
  subst h0 h1 h2 h3
  refine ⟨?_, ?_, ?_, ?_, ?_⟩
  · after_results3
  · after_results3
  · after_results3
  · after_results3
  · after_results3
    show concatenate S16x8256 1 [⟨S16x64, W (Proc.devRef .tc main_v50)⟩, ⟨S16x4096, W (Proc.devRef .tc main_v75)⟩,
        ⟨S16x4096, W (Proc.devRef .tc main_v76)⟩] concatenates_S16x64_S16x4096_S16x4096_S16x8256_d1 = _
    rw [hv50, hv75, hv76]; rfl

/-- All the operations, from any contents `V`: the result buffer ends at the last stage's value of the four arguments'
    contents in `V`, and the arguments are where they were. Each stretch hands the next one the stages it has reached,
    as values of the arguments' contents in `V`. -/
theorem free_after (V : Valuation τ sig (Elt F)) :
    after ops V (Proc.devRef .tc main_v77)
        = val_main_v77 (F := F) (V (Proc.devRef .tc main_arg0)) (V (Proc.devRef .tc main_arg1)) (V (Proc.devRef .tc main_arg2)) (V (Proc.devRef .tc main_arg3))
    ∧ after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3) := by
  obtain ⟨a0, a1, a2, a3, a_v2, a_v14⟩ := free_mahalanobis V _ _ _ _ rfl rfl rfl rfl
  obtain ⟨b0, b1, b2, b3, b_v2, b_v27⟩ := free_logits _ _ _ _ _ a0 a1 a2 a3 a_v2 a_v14
  obtain ⟨c0, c1, c2, c3, c_v2, c_v38⟩ := free_softmax _ _ _ _ _ b0 b1 b2 b3 b_v2 b_v27
  obtain ⟨d0, d1, d2, d3, d_v41, d_v44, d_v47⟩ := free_moments _ _ _ _ _ c0 c1 c2 c3 c_v2 c_v38
  obtain ⟨e0, e1, e2, e3, e_v44, e_v47, e_v50, e_v51, e_v56⟩ := free_gradMean _ _ _ _ _ d0 d1 d2 d3 d_v41 d_v44 d_v47
  obtain ⟨f0, f1, f2, f3, f_v50, f_v75, f_v76⟩ := free_gradVar _ _ _ _ _ e0 e1 e2 e3 e_v44 e_v47 e_v50 e_v51 e_v56
  obtain ⟨g0, g1, g2, g3, g_v77⟩ := free_concat _ _ _ _ _ f0 f1 f2 f3 f_v50 f_v75 f_v76
  rw [free_after_eq]
  exact ⟨g_v77, g0, g1, g2, g3⟩

/-- The reference's run: every weakly fair execution ends with the result buffer at the last stage's value of
    the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77)
          = val_main_v77 (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v77).trans (free_after _).1,
       (h c main_arg0).trans (free_after _).2.1,
       (h c main_arg1).trans (free_after _).2.2.1,
       (h c main_arg2).trans (free_after _).2.2.2.1,
       (h c main_arg3).trans (free_after _).2.2.2.2⟩)
    (run_seq scopedRefs_eq scopedSems_eq defs main (fun _ => ops) main_eq (fun _ => ops_sub) m ρ)

end Cert.ReferenceIdeal.RefRun

end
-- ==== Proof.RefResp.lean ====
import proofs.«110436_j6837587935988_1_alg».proof.Proof.RefRead
import proofs.«110436_j6837587935988_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open Cert.ReferenceIdeal Cert.ReferenceIdeal.Gen Cert.ReferenceIdeal.ReadP

namespace Cert.ReferenceIdeal.Bridge

/-! ## The operand indices by coordinates -/

/-- The left operand of the first product at (b, n, k), contraction coordinate d, is read at (b, n, d). -/
theorem logit_lidx3 (b : Fin 16) (n : Fin 16384) (k d : Fin 64) : lidx_main_v3 (ix3 b n k) d = ix3 b n d :=
  funext fun a => Fin.ext (by match a with | ⟨0, _⟩ => rfl | ⟨1, _⟩ => rfl | ⟨2, _⟩ => rfl)

/-- The right operand of the first product at (b, n, k), contraction coordinate d, is read at (k, d). -/
theorem logit_ridx3 (b : Fin 16) (n : Fin 16384) (k d : Fin 64) : ridx_main_v3 (ix3 b n k) d = ix2 k d :=
  funext fun a => Fin.ext (by match a with | ⟨0, _⟩ => rfl | ⟨1, _⟩ => rfl)

/-- The left operand of the second product likewise. -/
theorem logit_lidx5 (b : Fin 16) (n : Fin 16384) (k d : Fin 64) : lidx_main_v5 (ix3 b n k) d = ix3 b n d :=
  funext fun a => Fin.ext (by match a with | ⟨0, _⟩ => rfl | ⟨1, _⟩ => rfl | ⟨2, _⟩ => rfl)

/-- The right operand of the second product likewise. -/
theorem logit_ridx5 (b : Fin 16) (n : Fin 16384) (k d : Fin 64) : ridx_main_v5 (ix3 b n k) d = ix2 k d :=
  funext fun a => Fin.ext (by match a with | ⟨0, _⟩ => rfl | ⟨1, _⟩ => rfl)

/-- Row k of a 64 × 64 array summed over its columns reads the entries (k, d). -/
theorem logit_idx11 (k d : Fin 64) : idx_main_v11 (ix1 k) d = ix2 k d :=
  funext fun a => Fin.ext (by match a with | ⟨0, _⟩ => rfl | ⟨1, _⟩ => rfl)

theorem logit_idx16 (k d : Fin 64) : idx_main_v16 (ix1 k) d = ix2 k d :=
  funext fun a => Fin.ext (by match a with | ⟨0, _⟩ => rfl | ⟨1, _⟩ => rfl)

/-- A per-component vector broadcast over the batch rows and the samples is read at the component. -/
theorem logit_idx13 (b : Fin 16) (n : Fin 16384) (k : Fin 64) : idx_main_v12 (idx_main_v13 (ix3 b n k)) = ix1 k :=
  funext fun a => Fin.ext (by match a with | ⟨0, _⟩ => rfl)

theorem logit_idx20 (b : Fin 16) (n : Fin 16384) (k : Fin 64) : idx_main_v19 (idx_main_v20 (ix3 b n k)) = ix1 k :=
  funext fun a => Fin.ext (by match a with | ⟨0, _⟩ => rfl)

theorem logit_idx26 (b : Fin 16) (n : Fin 16384) (k : Fin 64) : idx_main_v25 (idx_main_v26 (ix3 b n k)) = ix1 k :=
  funext fun a => Fin.ext (by match a with | ⟨0, _⟩ => rfl)

/-- A per-sample value broadcast over the components is read at the sample. -/
theorem resp_idx32 (b : Fin 16) (n : Fin 16384) (k : Fin 64) : idx_main_v31 (idx_main_v32 (ix3 b n k)) = ix2 b n :=
  funext fun a => Fin.ext (by match a with | ⟨0, _⟩ => rfl | ⟨1, _⟩ => rfl)

theorem resp_idx37 (b : Fin 16) (n : Fin 16384) (k : Fin 64) : idx_main_v36 (idx_main_v37 (ix3 b n k)) = ix2 b n :=
  funext fun a => Fin.ext (by match a with | ⟨0, _⟩ => rfl | ⟨1, _⟩ => rfl)

/-- The sum over the components of sample (b, n) reads the entries (b, n, k'). -/
theorem resp_idx35 (b : Fin 16) (n : Fin 16384) (k' : Fin 64) : idx_main_v35 (ix2 b n) k' = ix3 b n k' :=
  funext fun a => Fin.ext (by match a with | ⟨0, _⟩ => rfl | ⟨1, _⟩ => rfl | ⟨2, _⟩ => rfl)

/-! ## The logits -/

/-- The reciprocal of a variance entry. -/
theorem logit_ivar (x3 : (⟨S64x64, .f32⟩ : BufTy).Contents (Elt Ideal)) (k d : Fin 64) :
    val_main_v1 (F := Ideal) x3 (ix2 k d) = Cert.Fisher.ivar (fun k' d' => x3 (ix2 k' d')) k d := by
  rw [val_main_v1_apply, val_main_v0_apply, val_main_cst_apply]
  rfl

/-- The squared features against the reciprocal variances. -/
theorem logit_sq (x0 : (⟨S16x16384x64, .f32⟩ : BufTy).Contents (Elt Ideal)) (x3 : (⟨S64x64, .f32⟩ : BufTy).Contents (Elt Ideal))
    (b : Fin 16) (n : Fin 16384) (k : Fin 64) :
    val_main_v3 (F := Ideal) x0 x3 (ix3 b n k)
      = ∑ d : Fin 64, (x0 (ix3 b n d) * x0 (ix3 b n d)) * Cert.Fisher.ivar (fun k' d' => x3 (ix2 k' d')) k d := by
  rw [val_main_v3_apply]
  refine Finset.sum_congr rfl fun d _ => ?_
  rw [logit_lidx3, logit_ridx3, logit_ivar, val_main_v2_apply]
  rfl

/-- The features against the means over the variances. -/
theorem logit_cross (x0 : (⟨S16x16384x64, .f32⟩ : BufTy).Contents (Elt Ideal)) (x2 x3 : (⟨S64x64, .f32⟩ : BufTy).Contents (Elt Ideal))
    (b : Fin 16) (n : Fin 16384) (k : Fin 64) :
    val_main_v5 (F := Ideal) x0 x2 x3 (ix3 b n k)
      = ∑ d : Fin 64, x0 (ix3 b n d) * (x2 (ix2 k d) * Cert.Fisher.ivar (fun k' d' => x3 (ix2 k' d')) k d) := by
  rw [val_main_v5_apply]
  refine Finset.sum_congr rfl fun d _ => ?_
  rw [logit_lidx5, logit_ridx5, val_main_v4_apply, logit_ivar]
  rfl

/-- The squared means over the variances, summed over the features. -/
theorem logit_musq (x2 x3 : (⟨S64x64, .f32⟩ : BufTy).Contents (Elt Ideal)) (k : Fin 64) :
    val_main_v11 (F := Ideal) x2 x3 (ix1 k)
      = ∑ d : Fin 64, (x2 (ix2 k d) * x2 (ix2 k d)) * Cert.Fisher.ivar (fun k' d' => x3 (ix2 k' d')) k d := by
  rw [val_main_v11_apply, val_main_cst_1_apply, Ideal.ofBits_def, Ideal.ofBits_zero_f32, zero_add]
  refine Finset.sum_congr rfl fun d _ => ?_
  rw [logit_idx11, val_main_v10_apply, val_main_v9_apply, logit_ivar]
  rfl

/-- The log-variances summed over the features. -/
theorem logit_logvar (x3 : (⟨S64x64, .f32⟩ : BufTy).Contents (Elt Ideal)) (k : Fin 64) :
    val_main_v16 (F := Ideal) x3 (ix1 k) = ∑ d : Fin 64, Ideal.log (x3 (ix2 k d)) := by
  rw [val_main_v16_apply, val_main_cst_2_apply, Ideal.ofBits_def, Ideal.ofBits_zero_f32, zero_add]
  refine Finset.sum_congr rfl fun d _ => ?_
  rw [logit_idx16, val_main_v15_apply]
  rfl

/-- The logit of component `k` for sample (b, n): the Gaussian log-density plus the log of the mixture weight. -/
theorem logit_apply (x0 : (⟨S16x16384x64, .f32⟩ : BufTy).Contents (Elt Ideal)) (x1 : (⟨S64, .f32⟩ : BufTy).Contents (Elt Ideal))
    (x2 x3 : (⟨S64x64, .f32⟩ : BufTy).Contents (Elt Ideal)) (b : Fin 16) (n : Fin 16384) (k : Fin 64) :
    val_main_v27 (F := Ideal) x0 x1 x2 x3 (ix3 b n k)
      = Cert.Fisher.logProb (fun k' d => x2 (ix2 k' d)) (fun k' d => x3 (ix2 k' d)) (fun d => x0 (ix3 b n d)) k
        + Ideal.log (x1 (ix1 k)) := by
  rw [val_main_v27_apply, val_main_v23_apply, val_main_v22_apply, val_main_cst_4_apply, val_main_v21_apply,
    val_main_v20_apply, val_main_v19_apply, logit_idx20, val_main_v18_apply, val_main_v17_apply, val_main_cst_3_apply,
    logit_logvar, val_main_v14_apply, val_main_v8_apply, logit_sq, val_main_v7_apply, val_main_v6_apply,
    val_main_cst_0_apply, logit_cross, val_main_v13_apply, val_main_v12_apply, logit_idx13, logit_musq,
    val_main_v26_apply, val_main_v25_apply, logit_idx26, val_main_v24_apply]
  rfl

/-! ## The row maximum -/

/-- The sample (b, n) with the component k' put back is (b, n, k'). -/
theorem resp_lift (h : S16x16384x64.Reduces [2] S16x16384) (b : Fin 16) (n : Fin 16384) (k' : Fin 64) :
    h.lift (ix2 b n) k' = ix3 b n k' :=
  funext fun a => Fin.ext (by match a with | ⟨0, _⟩ => rfl | ⟨1, _⟩ => rfl | ⟨2, _⟩ => rfl)

/-- The maximum over the components, taken from minus infinity, then once more against minus infinity. -/
theorem resp_rowMax (x0 : (⟨S16x16384x64, .f32⟩ : BufTy).Contents (Elt Ideal)) (x1 : (⟨S64, .f32⟩ : BufTy).Contents (Elt Ideal))
    (x2 x3 : (⟨S64x64, .f32⟩ : BufTy).Contents (Elt Ideal)) (b : Fin 16) (n : Fin 16384) :
    val_main_v30 (F := Ideal) x0 x1 x2 x3 (ix2 b n)
      = Cert.Fisher.rowMax (fun k' => val_main_v27 (F := Ideal) x0 x1 x2 x3 (ix3 b n k')) := by
  rw [val_main_v30_apply, val_main_v29_apply, val_main_cst_6_apply]
  unfold val_main_v28
  generalize val_main_v27 (F := Ideal) x0 x1 x2 x3 = y
  have h : S16x16384x64.Reduces [2] S16x16384 := by decide
  have e := Host.reduce_eq_fold_single (α := EReal) (s := S16x16384x64) (t := S16x16384) (a := 2) (u := S_)
    (FloatOps.maximumf (F := Ideal) (φ := .f32)) y (val_main_cst_5 (F := Ideal)) reducesTo_S16x16384x64_S16x16384_d2 h h_S_ (ix2 b n)
  rw [e, val_main_cst_5_apply]
  have hf : (y ∘ h.lift (ix2 b n)) = fun k' : Fin 64 => y (ix3 b n k') :=
    funext fun k' => congrArg y (resp_lift h b n k')
  exact congrArg (fun f : Fin 64 → EReal => max (Ideal.ofBits .f32 0xFF800000#32)
    ((Finset.univ : Finset (Fin 64)).fold max (Ideal.ofBits .f32 0xFF800000#32) f)) hf

/-! ## The softmax -/

/-- The exponential of a logit less the row maximum. -/
theorem resp_exp (x0 : (⟨S16x16384x64, .f32⟩ : BufTy).Contents (Elt Ideal)) (x1 : (⟨S64, .f32⟩ : BufTy).Contents (Elt Ideal))
    (x2 x3 : (⟨S64x64, .f32⟩ : BufTy).Contents (Elt Ideal)) (b : Fin 16) (n : Fin 16384) (k : Fin 64) :
    val_main_v34 (F := Ideal) x0 x1 x2 x3 (ix3 b n k)
      = Ideal.exp (val_main_v27 (F := Ideal) x0 x1 x2 x3 (ix3 b n k)
          - Cert.Fisher.rowMax (fun k' => val_main_v27 (F := Ideal) x0 x1 x2 x3 (ix3 b n k'))) := by
  rw [val_main_v34_apply, val_main_v33_apply, val_main_v32_apply, val_main_v31_apply, resp_idx32, resp_rowMax]
  rfl

/-- The sum of those exponentials over the components. -/
theorem resp_denom (x0 : (⟨S16x16384x64, .f32⟩ : BufTy).Contents (Elt Ideal)) (x1 : (⟨S64, .f32⟩ : BufTy).Contents (Elt Ideal))
    (x2 x3 : (⟨S64x64, .f32⟩ : BufTy).Contents (Elt Ideal)) (b : Fin 16) (n : Fin 16384) :
    val_main_v35 (F := Ideal) x0 x1 x2 x3 (ix2 b n)
      = ∑ k' : Fin 64, Ideal.exp (val_main_v27 (F := Ideal) x0 x1 x2 x3 (ix3 b n k')
          - Cert.Fisher.rowMax (fun k'' => val_main_v27 (F := Ideal) x0 x1 x2 x3 (ix3 b n k''))) := by
  rw [val_main_v35_apply, val_main_cst_7_apply, Ideal.ofBits_def, Ideal.ofBits_zero_f32, zero_add]
  refine Finset.sum_congr rfl fun k' _ => ?_
  rw [resp_idx35, resp_exp]

/-- The reference's responsibilities: at batch row `b`, sample `n`, component `k` the softmax stage is the
    responsibility of component `k` for that sample's feature row. -/
theorem resp_apply (x0 : (⟨S16x16384x64, .f32⟩ : BufTy).Contents (Elt Ideal)) (x1 : (⟨S64, .f32⟩ : BufTy).Contents (Elt Ideal))
    (x2 x3 : (⟨S64x64, .f32⟩ : BufTy).Contents (Elt Ideal)) (b : Fin 16) (n : Fin 16384) (k : Fin 64) :
    val_main_v38 (F := Ideal) x0 x1 x2 x3 (ix3 b n k) = Cert.Fisher.gamma x0 x1 x2 x3 b n k := by
  rw [val_main_v38_apply, val_main_v37_apply, val_main_v36_apply, resp_idx37, resp_exp, resp_denom]
  simp only [logit_apply]
  rfl

end Cert.ReferenceIdeal.Bridge

end
-- ==== Proof.RefTail.lean ====
import proofs.«110436_j6837587935988_1_alg».proof.Proof.RefRead
import proofs.«110436_j6837587935988_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open Cert.ReferenceIdeal Cert.ReferenceIdeal.Gen Cert.ReferenceIdeal.ReadP

namespace Cert.ReferenceIdeal.Bridge

section Tail

variable (x0 : (⟨S16x16384x64, .f32⟩ : BufTy).Contents (Elt Ideal)) (x1 : (⟨S64, .f32⟩ : BufTy).Contents (Elt Ideal))
  (x2 x3 : (⟨S64x64, .f32⟩ : BufTy).Contents (Elt Ideal))

/-! ### The sample count and the constant two, broadcast -/

/-- The divisor of the summed responsibilities is the sample count at every index. -/
theorem tail_cnt2 (i : S16x64.Idx) : val_main_v40 (F := Ideal) i = Cert.Fisher.cnt :=
  (val_main_v40_apply (F := Ideal) i).trans rfl

/-- The divisor of the weighted feature sums is the sample count at every index. -/
theorem tail_cnt3 (i : S16x64x64.Idx) : val_main_v43 (F := Ideal) i = Cert.Fisher.cnt :=
  (val_main_v43_apply (F := Ideal) i).trans rfl

/-- The divisor of the weighted squared-feature sums is the sample count at every index. -/
theorem tail_cnt3' (i : S16x64x64.Idx) : val_main_v46 (F := Ideal) i = Cert.Fisher.cnt :=
  (val_main_v46_apply (F := Ideal) i).trans rfl

/-- The factor of the cross term is the constant two at every index. -/
theorem tail_two (i : S16x64x64.Idx) : val_main_v69 (F := Ideal) i = Ideal.ofBits .f32 0x40000000#32 :=
  (val_main_v69_apply (F := Ideal) i).trans rfl

/-! ### The three statistics: sums over the samples divided by the sample count -/

/-- The mean responsibility of component `k` over the samples of batch row `b`. -/
theorem tail_sum0
    (hQ : ∀ (b : Fin 16) (n : Fin 16384) (k : Fin 64),
      val_main_v38 (F := Ideal) x0 x1 x2 x3 (ix3 b n k) = Cert.Fisher.gamma x0 x1 x2 x3 b n k)
    (b : Fin 16) (k : Fin 64) :
    val_main_v41 (F := Ideal) x0 x1 x2 x3 (ix2 b k)
      = Ideal.div (Cert.Fisher.sum0 x0 x1 x2 x3 b k) Cert.Fisher.cnt := by
  show Ideal.div (val_main_v39 (F := Ideal) x0 x1 x2 x3 (ix2 b k)) (val_main_v40 (F := Ideal) (ix2 b k)) = _
  rw [tail_cnt2, val_main_v39_apply]
  have h0 : val_main_cst_8 (F := Ideal) (Shape.Idx.first h_S_) = 0 := Ideal.ofBits_zero_f32
  rw [h0, zero_add]
  unfold Cert.Fisher.sum0
  refine congrArg (Ideal.div · Cert.Fisher.cnt) (Finset.sum_congr rfl fun n _ => ?_)
  have e : idx_main_v39 (ix2 b k) n = ix3 b n k :=
    funext fun a => by match a with | ⟨0, _⟩ => rfl | ⟨1, _⟩ => rfl | ⟨2, _⟩ => rfl
  rw [e, hQ]

/-- The mean of the responsibility-weighted feature `d`. -/
theorem tail_sum1
    (hQ : ∀ (b : Fin 16) (n : Fin 16384) (k : Fin 64),
      val_main_v38 (F := Ideal) x0 x1 x2 x3 (ix3 b n k) = Cert.Fisher.gamma x0 x1 x2 x3 b n k)
    (b : Fin 16) (k d : Fin 64) :
    val_main_v44 (F := Ideal) x0 x1 x2 x3 (ix3 b k d)
      = Ideal.div (Cert.Fisher.sum1 x0 x1 x2 x3 b k d) Cert.Fisher.cnt := by
  show Ideal.div (val_main_v42 (F := Ideal) x0 x1 x2 x3 (ix3 b k d)) (val_main_v43 (F := Ideal) (ix3 b k d)) = _
  rw [tail_cnt3, val_main_v42_apply]
  unfold Cert.Fisher.sum1
  refine congrArg (Ideal.div · Cert.Fisher.cnt) (Finset.sum_congr rfl fun n _ => ?_)
  have el : lidx_main_v42 (ix3 b k d) n = ix3 b n k :=
    funext fun a => by match a with | ⟨0, _⟩ => rfl | ⟨1, _⟩ => rfl | ⟨2, _⟩ => rfl
  have er : ridx_main_v42 (ix3 b k d) n = ix3 b n d :=
    funext fun a => by match a with | ⟨0, _⟩ => rfl | ⟨1, _⟩ => rfl | ⟨2, _⟩ => rfl
  rw [el, er, hQ]

/-- The mean of the responsibility-weighted squared feature `d`. -/
theorem tail_sum2
    (hQ : ∀ (b : Fin 16) (n : Fin 16384) (k : Fin 64),
      val_main_v38 (F := Ideal) x0 x1 x2 x3 (ix3 b n k) = Cert.Fisher.gamma x0 x1 x2 x3 b n k)
    (b : Fin 16) (k d : Fin 64) :
    val_main_v47 (F := Ideal) x0 x1 x2 x3 (ix3 b k d)
      = Ideal.div (Cert.Fisher.sum2 x0 x1 x2 x3 b k d) Cert.Fisher.cnt := by
  show Ideal.div (val_main_v45 (F := Ideal) x0 x1 x2 x3 (ix3 b k d)) (val_main_v46 (F := Ideal) (ix3 b k d)) = _
  rw [tail_cnt3', val_main_v45_apply]
  unfold Cert.Fisher.sum2
  refine congrArg (Ideal.div · Cert.Fisher.cnt) (Finset.sum_congr rfl fun n _ => ?_)
  have el : lidx_main_v45 (ix3 b k d) n = ix3 b n k :=
    funext fun a => by match a with | ⟨0, _⟩ => rfl | ⟨1, _⟩ => rfl | ⟨2, _⟩ => rfl
  have er : ridx_main_v45 (ix3 b k d) n = ix3 b n d :=
    funext fun a => by match a with | ⟨0, _⟩ => rfl | ⟨1, _⟩ => rfl | ⟨2, _⟩ => rfl
  rw [el, er, hQ]
  rfl

/-! ### The parameters, broadcast over the batch rows -/

/-- The mixture weights broadcast over the batch rows read the weight of the component. -/
theorem tail_pi (b : Fin 16) (k : Fin 64) : val_main_v49 (F := Ideal) x1 (ix2 b k) = x1 (ix1 k) := by
  rw [val_main_v49_apply, val_main_v48_apply]
  exact congrArg x1 (funext fun a => by match a with | ⟨0, _⟩ => rfl)

/-- The means broadcast over the batch rows read the mean entry. -/
theorem tail_mu (b : Fin 16) (k d : Fin 64) : val_main_v54 (F := Ideal) x2 (ix3 b k d) = x2 (ix2 k d) := by
  rw [val_main_v54_apply, val_main_v52_apply]
  exact congrArg x2 (funext fun a => by match a with | ⟨0, _⟩ => rfl | ⟨1, _⟩ => rfl)

/-- The same broadcast of the means, as the cross term reads it. -/
theorem tail_mu' (b : Fin 16) (k d : Fin 64) : val_main_v72 (F := Ideal) x2 (ix3 b k d) = x2 (ix2 k d) := by
  rw [val_main_v72_apply, val_main_v71_apply]
  exact congrArg x2 (funext fun a => by match a with | ⟨0, _⟩ => rfl | ⟨1, _⟩ => rfl)

/-- The squared means broadcast over the batch rows. -/
theorem tail_musq (b : Fin 16) (k d : Fin 64) :
    val_main_v61 (F := Ideal) x2 (ix3 b k d) = x2 (ix2 k d) * x2 (ix2 k d) := by
  rw [val_main_v61_apply, val_main_v59_apply]
  have e : idx_main_v59 (idx_main_v61 (ix3 b k d)) = ix2 k d :=
    funext fun a => by match a with | ⟨0, _⟩ => rfl | ⟨1, _⟩ => rfl
  rw [e]
  rfl

/-- The variances broadcast over the batch rows read the variance entry. -/
theorem tail_var (b : Fin 16) (k d : Fin 64) : val_main_v66 (F := Ideal) x3 (ix3 b k d) = x3 (ix2 k d) := by
  rw [val_main_v66_apply, val_main_v64_apply]
  exact congrArg x3 (funext fun a => by match a with | ⟨0, _⟩ => rfl | ⟨1, _⟩ => rfl)

/-! ### The mean responsibilities, broadcast along the feature axis -/

/-- The mean responsibilities with a unit feature axis appended, then broadcast along it (mean gradient). -/
theorem tail_q53 (b : Fin 16) (k d : Fin 64) :
    val_main_v53 (F := Ideal) x0 x1 x2 x3 (ix3 b k d) = val_main_v41 (F := Ideal) x0 x1 x2 x3 (ix2 b k) := by
  rw [val_main_v53_apply, val_main_v51_apply]
  exact congrArg _ (funext fun a => by match a with | ⟨0, _⟩ => rfl | ⟨1, _⟩ => rfl)

/-- The same broadcast, as the squared-mean term of the variance gradient reads it. -/
theorem tail_q60 (b : Fin 16) (k d : Fin 64) :
    val_main_v60 (F := Ideal) x0 x1 x2 x3 (ix3 b k d) = val_main_v41 (F := Ideal) x0 x1 x2 x3 (ix2 b k) := by
  rw [val_main_v60_apply, val_main_v51_apply]
  exact congrArg _ (funext fun a => by match a with | ⟨0, _⟩ => rfl | ⟨1, _⟩ => rfl)

/-- The same broadcast, as the variance term of the variance gradient reads it. -/
theorem tail_q65 (b : Fin 16) (k d : Fin 64) :
    val_main_v65 (F := Ideal) x0 x1 x2 x3 (ix3 b k d) = val_main_v41 (F := Ideal) x0 x1 x2 x3 (ix2 b k) := by
  rw [val_main_v65_apply, val_main_v51_apply]
  exact congrArg _ (funext fun a => by match a with | ⟨0, _⟩ => rfl | ⟨1, _⟩ => rfl)

/-! ### The three gradient blocks at explicit coordinates -/

/-- The weight gradient: the mean responsibility less the weight. -/
theorem tail_gradPi
    (hQ : ∀ (b : Fin 16) (n : Fin 16384) (k : Fin 64),
      val_main_v38 (F := Ideal) x0 x1 x2 x3 (ix3 b n k) = Cert.Fisher.gamma x0 x1 x2 x3 b n k)
    (b : Fin 16) (k : Fin 64) :
    val_main_v50 (F := Ideal) x0 x1 x2 x3 (ix2 b k) = Cert.Fisher.gradPi x0 x1 x2 x3 b k := by
  show val_main_v41 (F := Ideal) x0 x1 x2 x3 (ix2 b k) - val_main_v49 (F := Ideal) x1 (ix2 b k) = _
  rw [tail_sum0 x0 x1 x2 x3 hQ, tail_pi]
  rfl

/-- The mean gradient: the mean weighted feature less the mean responsibility times the mean. -/
theorem tail_gradMu
    (hQ : ∀ (b : Fin 16) (n : Fin 16384) (k : Fin 64),
      val_main_v38 (F := Ideal) x0 x1 x2 x3 (ix3 b n k) = Cert.Fisher.gamma x0 x1 x2 x3 b n k)
    (b : Fin 16) (k d : Fin 64) :
    val_main_v56 (F := Ideal) x0 x1 x2 x3 (ix3 b k d) = Cert.Fisher.gradMu x0 x1 x2 x3 b k d := by
  show val_main_v44 (F := Ideal) x0 x1 x2 x3 (ix3 b k d)
      - val_main_v53 (F := Ideal) x0 x1 x2 x3 (ix3 b k d) * val_main_v54 (F := Ideal) x2 (ix3 b k d) = _
  rw [tail_sum1 x0 x1 x2 x3 hQ, tail_q53, tail_sum0 x0 x1 x2 x3 hQ, tail_mu]
  rfl

/-- The variance gradient: minus the mean weighted squared feature, less the mean responsibility times the squared
    mean, plus the mean responsibility times the variance, plus twice the mean weighted feature times the mean. -/
theorem tail_gradSigma
    (hQ : ∀ (b : Fin 16) (n : Fin 16384) (k : Fin 64),
      val_main_v38 (F := Ideal) x0 x1 x2 x3 (ix3 b n k) = Cert.Fisher.gamma x0 x1 x2 x3 b n k)
    (b : Fin 16) (k d : Fin 64) :
    val_main_v74 (F := Ideal) x0 x1 x2 x3 (ix3 b k d) = Cert.Fisher.gradSigma x0 x1 x2 x3 b k d := by
  show ((-(val_main_v47 (F := Ideal) x0 x1 x2 x3 (ix3 b k d))
          - val_main_v60 (F := Ideal) x0 x1 x2 x3 (ix3 b k d) * val_main_v61 (F := Ideal) x2 (ix3 b k d))
        + val_main_v65 (F := Ideal) x0 x1 x2 x3 (ix3 b k d) * val_main_v66 (F := Ideal) x3 (ix3 b k d))
      + (val_main_v69 (F := Ideal) (ix3 b k d) * val_main_v44 (F := Ideal) x0 x1 x2 x3 (ix3 b k d))
          * val_main_v72 (F := Ideal) x2 (ix3 b k d) = _
  rw [tail_sum2 x0 x1 x2 x3 hQ, tail_q60, tail_musq, tail_q65, tail_var, tail_two, tail_sum1 x0 x1 x2 x3 hQ,
    tail_mu', tail_sum0 x0 x1 x2 x3 hQ]
  rfl

/-! ### The flattening of a 64×64 block -/

/-- Row-major position `(b, c)` of a 16×4096 array is position `(b, c / 64, c % 64)` of the 16×64×64 array
    (the mean-gradient block). -/
theorem tail_unflatten (b : Fin 16) (c : Nat) (hc : c < 4096) :
    idx_main_v75 (ix2 b ⟨c, hc⟩) = ix3 b ⟨c / 64, by omega⟩ ⟨c % 64, Nat.mod_lt _ (by decide)⟩ :=
  funext fun a => Fin.ext (by
    have hb : b.val < 16 := b.isLt
    match a with
    | ⟨0, _⟩ => show (b.val * 4096 + c) / 4096 = b.val; omega
    | ⟨1, _⟩ => show (b.val * 4096 + c) / 64 % 64 = c / 64; omega
    | ⟨2, _⟩ => show (b.val * 4096 + c) % 64 = c % 64; omega)

/-- The same for the variance-gradient block. -/
theorem tail_unflatten' (b : Fin 16) (c : Nat) (hc : c < 4096) :
    idx_main_v76 (ix2 b ⟨c, hc⟩) = ix3 b ⟨c / 64, by omega⟩ ⟨c % 64, Nat.mod_lt _ (by decide)⟩ :=
  funext fun a => Fin.ext (by
    have hb : b.val < 16 := b.isLt
    match a with
    | ⟨0, _⟩ => show (b.val * 4096 + c) / 4096 = b.val; omega
    | ⟨1, _⟩ => show (b.val * 4096 + c) / 64 % 64 = c / 64; omega
    | ⟨2, _⟩ => show (b.val * 4096 + c) % 64 = c % 64; omega)

end Tail

/-! ### The concatenation of the three blocks read at an index -/

section Cat

variable {α : Type} (y0 : S16x64.Idx → α) (y1 y2 : S16x4096.Idx → α) (j : S16x8256.Idx)

/-- A column below 64 lies in the first block, at the same column. -/
theorem tail_cat0 (i : S16x64.Idx) (h0 : (i 0).val = (j 0).val) (h1 : (i 1).val = (j 1).val) :
    concatenate S16x8256 1 [⟨S16x64, y0⟩, ⟨S16x4096, y1⟩, ⟨S16x4096, y2⟩]
        concatenates_S16x64_S16x4096_S16x4096_S16x8256_d1 j = y0 i :=
  concatenate_apply_piece (1 : Fin S16x8256.rank) _ _ j 0 (by show 0 < 3; decide) S16x64 y0 rfl rfl 0 rfl i
    (fun a ha => match a with | ⟨0, _⟩ => h0 | ⟨1, _⟩ => absurd rfl ha)
    ((Nat.zero_add _).trans h1)

/-- A column from 64 to below 4160 lies in the second block, 64 columns in. -/
theorem tail_cat1 (i : S16x4096.Idx) (h0 : (i 0).val = (j 0).val) (h1 : 64 + (i 1).val = (j 1).val) :
    concatenate S16x8256 1 [⟨S16x64, y0⟩, ⟨S16x4096, y1⟩, ⟨S16x4096, y2⟩]
        concatenates_S16x64_S16x4096_S16x4096_S16x8256_d1 j = y1 i :=
  concatenate_apply_piece (1 : Fin S16x8256.rank) _ _ j 1 (by show 1 < 3; decide) S16x4096 y1 rfl rfl 64 rfl i
    (fun a ha => match a with | ⟨0, _⟩ => h0 | ⟨1, _⟩ => absurd rfl ha)
    h1

/-- A column from 4160 on lies in the third block, 4160 columns in. -/
theorem tail_cat2 (i : S16x4096.Idx) (h0 : (i 0).val = (j 0).val) (h1 : 4160 + (i 1).val = (j 1).val) :
    concatenate S16x8256 1 [⟨S16x64, y0⟩, ⟨S16x4096, y1⟩, ⟨S16x4096, y2⟩]
        concatenates_S16x64_S16x4096_S16x4096_S16x8256_d1 j = y2 i :=
  concatenate_apply_piece (1 : Fin S16x8256.rank) _ _ j 2 (by show 2 < 3; decide) S16x4096 y2 rfl rfl 4160 rfl i
    (fun a ha => match a with | ⟨0, _⟩ => h0 | ⟨1, _⟩ => absurd rfl ha)
    h1

end Cat

/-- The reference's result is the Fisher vector, given that its softmax stage holds the responsibilities. -/
theorem fisher_eq (x0 : (⟨S16x16384x64, .f32⟩ : BufTy).Contents (Elt Ideal)) (x1 : (⟨S64, .f32⟩ : BufTy).Contents (Elt Ideal))
    (x2 x3 : (⟨S64x64, .f32⟩ : BufTy).Contents (Elt Ideal))
    (hQ : ∀ (b : Fin 16) (n : Fin 16384) (k : Fin 64),
      val_main_v38 (F := Ideal) x0 x1 x2 x3 (ix3 b n k) = Cert.Fisher.gamma x0 x1 x2 x3 b n k) :
    val_main_v77 (F := Ideal) x0 x1 x2 x3 = Cert.Fisher.fisher x0 x1 x2 x3 := by
  funext j
  have hc8 : (j 1).val < 8256 := (j 1).isLt
  unfold val_main_v77 Cert.Fisher.fisher
  by_cases h1 : (j 1).val < 64
  · -- a column below 64: the weight-gradient block
    rw [dif_pos h1]
    refine (tail_cat0 _ _ _ j (ix2 (j 0) ⟨(j 1).val, h1⟩) rfl rfl).trans ?_
    exact tail_gradPi x0 x1 x2 x3 hQ (j 0) ⟨(j 1).val, h1⟩
  · by_cases h2 : (j 1).val < 4160
    · -- a column from 64 to below 4160: the mean-gradient block, flattened row-major
      rw [dif_neg h1, dif_pos h2]
      have hc : (j 1).val - 64 < 4096 := by omega
      refine (tail_cat1 _ _ _ j (ix2 (j 0) ⟨(j 1).val - 64, hc⟩) rfl
        (by show 64 + ((j 1).val - 64) = (j 1).val; omega)).trans ?_
      refine (val_main_v75_apply (F := Ideal) x0 x1 x2 x3 _).trans ?_
      refine (congrArg (val_main_v56 (F := Ideal) x0 x1 x2 x3) (tail_unflatten (j 0) ((j 1).val - 64) hc)).trans ?_
      exact tail_gradMu x0 x1 x2 x3 hQ (j 0) _ _
    · -- a column from 4160 on: the variance-gradient block, flattened row-major
      rw [dif_neg h1, dif_neg h2]
      have hc : (j 1).val - 4160 < 4096 := by omega
      refine (tail_cat2 _ _ _ j (ix2 (j 0) ⟨(j 1).val - 4160, hc⟩) rfl
        (by show 4160 + ((j 1).val - 4160) = (j 1).val; omega)).trans ?_
      refine (val_main_v76_apply (F := Ideal) x0 x1 x2 x3 _).trans ?_
      refine (congrArg (val_main_v74 (F := Ideal) x0 x1 x2 x3) (tail_unflatten' (j 0) ((j 1).val - 4160) hc)).trans ?_
      exact tail_gradSigma x0 x1 x2 x3 hQ (j 0) _ _

end Cert.ReferenceIdeal.Bridge

end
-- ==== Proof.lean ====
/-
  The kernel streams the samples of each batch block through sixteen grid steps, keeps the summed
  responsibilities and the responsibility-weighted first and second moments in three accumulators that it
  clears at the first step of a block, and at the block's last step turns them into the gradients with
  respect to the mixture weights, the means and the variances. The reference computes the same sums over all
  16384 samples of a batch row at once. Over the extended reals addition is commutative and associative, so
  a sum over the samples is the sum over the sixteen steps of the sums over each step's 1024 samples; every
  other operation is applied by both programs in the same order to the same operands (a change of float
  format is the identity, a matrix product into a zero accumulator and a host contraction are the same sum,
  `0 - a` is `-a`). So both result arrays are one function of the arguments, `Cert.Fisher.fisher`.

  The kernel's frames are the generated ones; the reference's frame is its run with the result dropped; the
  idealization rewrote no operation. No law used needs finiteness, so the precondition is never opened.
-/
import proofs.«110436_j6837587935988_1_alg».proof.Defs
import proofs.«110436_j6837587935988_1_alg».proof.Proof.Gen.Kernel
import proofs.«110436_j6837587935988_1_alg».proof.Proof.Gen.Kernel.Frame
import proofs.«110436_j6837587935988_1_alg».proof.Proof.Gen.KernelIdeal
import proofs.«110436_j6837587935988_1_alg».proof.Proof.Gen.KernelIdeal.Frame
import proofs.«110436_j6837587935988_1_alg».proof.Proof.Gen.ReferenceIdeal
import proofs.«110436_j6837587935988_1_alg».proof.Proof.Gen.Pre_finite_inputs
import proofs.«110436_j6837587935988_1_alg».proof.Proof.KFold
import proofs.«110436_j6837587935988_1_alg».proof.Proof.RefRun
import proofs.«110436_j6837587935988_1_alg».proof.Proof.RefResp
import proofs.«110436_j6837587935988_1_alg».proof.Proof.RefTail
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end with the Fisher vector of arguments that agree. -/
theorem algebraic : Cert.algebraic_KernelIdeal_ReferenceIdeal := by
  intro m ρ m' ρ' _ hagree
  refine ⟨fun c => Cert.KernelIdeal.Fold.result m c, Cert.KernelIdeal.Fold.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.ReferenceIdeal.Bridge.fisher_eq _ _ _ _ (Cert.ReferenceIdeal.Bridge.resp_apply _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
